-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x32 : Shape := ⟨2, ![100000, 32]⟩
abbrev S_ : Shape := ⟨0, ![]⟩
abbrev S1x1600000 : Shape := ⟨2, ![1, 1600000]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  slices_S2x1600000_S1x1600000_1_0 : S2x1600000.Slices ![1, 0] S1x1600000
  shapeCasts_S1x1600000_S1600000 : S1x1600000.ShapeCasts S1600000

variable [Facts]

def fn_part1 {F : FTy → Type} [FloatOps F] (main_v14 : IVec S_ 1) (main_v16 : IVec S1600000 32) (main_c_4 : IVec S_ 32) : IVec S_ 1 :=
  let main_v17 : IVec S1600000 32 := broadcastInDim S1600000 ![] bcast_S_S1600000 main_c_4
  let main_v18 : IVec S1600000 1 := cmpi .slt main_v16 main_v17
  let main_c_5 : IVec S_ 1 := constantI S_ 1 1#1
  let main_v19 : IVec S_ 1 := (fun x v => Host.reduce IntOp.andi x v reducesTo_S1600000_S_d0 h_S_) main_v18 main_c_5
  let main_v20 : IVec S_ 1 := andi main_v14 main_v19
  main_v20

def fn {F : FTy → Type} [FloatOps F] (main_arg0 : IVec S2x1600000 32) (main_arg1 : FVec F S1600000 .f32) (main_arg2 : FVec F S100000x32 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : IVec S1x1600000 32 := (extractStridedSlice S1x1600000 ![1, 0] · slices_S2x1600000_S1x1600000_1_0) main_arg0
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_c_3 : IVec S_ 1 := constantI S_ 1 1#1
  let main_v13 : IVec S_ 1 := (fun x v => Host.reduce IntOp.andi x v reducesTo_S1600000_S_d0 h_S_) main_v12 main_c_3
  let main_v14 : IVec S_ 1 := andi main_v8 main_v13
  let main_v15 : IVec S1x1600000 32 := (extractStridedSlice S1x1600000 ![1, 0] · slices_S2x1600000_S1x1600000_1_0) main_arg0
  let main_v16 : IVec S1600000 32 := shapeCast S1600000 main_v15 shapeCasts_S1x1600000_S1600000
  let main_c_4 : IVec S_ 32 := constantI S_ 32 100000#32
  fn_part1 (F := F) main_v14 main_v16 main_c_4
-- ==== Kernel.lean ====
abbrev S2x1600000 : Shape := ⟨2, ![2, 1600000]⟩
abbrev S1600000 : Shape := ⟨1, ![1600000]⟩
abbrev S100000x32 : Shape := ⟨2, ![100000, 32]⟩
abbrev S1x1600000 : Shape := ⟨2, ![1, 1600000]⟩
abbrev S_ : Shape := ⟨0, ![]⟩
abbrev S1601536 : Shape := ⟨1, ![1601536]⟩
abbrev S1601536x32 : Shape := ⟨2, ![1601536, 32]⟩
abbrev S2048 : Shape := ⟨1, ![2048]⟩
abbrev S2048x32 : Shape := ⟨2, ![2048, 32]⟩
abbrev S1x2048 : Shape := ⟨2, ![1, 2048]⟩
abbrev S2000x32 : Shape := ⟨2, ![2000, 32]⟩
abbrev S2000x1 : Shape := ⟨2, ![2000, 1]⟩
abbrev S2000x2048 : Shape := ⟨2, ![2000, 2048]⟩
abbrev S2048x1 : Shape := ⟨2, ![2048, 1]⟩

abbrev nBuf : Space → Nat
  | .hbm => 19
  | .vmem => 13
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x32, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S_, .i32⟩
  | .hbm, ⟨9, _⟩ => ⟨S1601536, .i32⟩
  | .hbm, ⟨10, _⟩ => ⟨S_, .i32⟩
  | .hbm, ⟨11, _⟩ => ⟨S_, .i32⟩
  | .hbm, ⟨12, _⟩ => ⟨S1601536, .i32⟩
  | .hbm, ⟨13, _⟩ => ⟨S_, .i32⟩
  | .hbm, ⟨14, _⟩ => ⟨S_, .f32⟩
  | .hbm, ⟨15, _⟩ => ⟨S1601536, .f32⟩
  | .hbm, ⟨16, _⟩ => ⟨S100000x32, .bf16⟩
  | .hbm, ⟨17, _⟩ => ⟨S1601536x32, .f32⟩
  | .hbm, ⟨18, _⟩ => ⟨S100000x32, .f32⟩
  | .local _ .vmem, ⟨0, _⟩ => ⟨S2048, .i32⟩
  | .local _ .vmem, ⟨1, _⟩ => ⟨S2048, .i32⟩
  | .local _ .vmem, ⟨2, _⟩ => ⟨S2048, .f32⟩
  | .local _ .vmem, ⟨3, _⟩ => ⟨S2048, .f32⟩
  | .local _ .vmem, ⟨4, _⟩ => ⟨S100000x32, .bf16⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048, .i32⟩
  | .local _ .vmem, ⟨9, _⟩ => ⟨S2048, .i32⟩
  | .local _ .vmem, ⟨10, _⟩ => ⟨S2048x32, .f32⟩
  | .local _ .vmem, ⟨11, _⟩ => ⟨S2048x32, .f32⟩
  | .local _ .vmem, ⟨12, _⟩ => ⟨S100000x32, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11

abbrev nD : Nat := 1
abbrev τ : Topo := Topo.v7x

variable {F : FTy → Type} [FloatOps F]

abbrev grid0 : Pipeline.Grid := ⟨1, ![782], ![false]⟩

@[reducible] def k0_t1_loop : Scf.Loop 32 :=
  let c0_i32 : BitVec 32 := 0#32
  let c50_i32 : BitVec 32 := 50#32
  let v7 : BitVec 32 := Scalar.addi c0_i32 c50_i32
  let c1_i32 : BitVec 32 := 1#32
  ⟨c0_i32, v7, c1_i32⟩
def k0_mult1 (k0_t1 : Fin k0_t1_loop.trips) : BitVec 32 :=
  let c0_i32_9 : BitVec 32 := 0#32
  let c0_i32 : BitVec 32 := 0#32
  let c1_i32 : BitVec 32 := 1#32
  let arg6 : BitVec 32 := Scf.iv c0_i32 c1_i32 k0_t1
  let c1_i32_8 : BitVec 32 := 1#32
  let v15 : BitVec 32 := Scalar.muli arg6 c1_i32_8
  let v16 : BitVec 32 := Scalar.addi c0_i32_9 v15
  let c2000_i32 : BitVec 32 := 2000#32
  let v17 : BitVec 32 := Scalar.muli v16 c2000_i32
  v17
def k0_off1 (k0_t1 : Fin k0_t1_loop.trips) : Fin 2 → Nat :=
  let c0_i32_9 : BitVec 32 := 0#32
  let c0_i32 : BitVec 32 := 0#32
  let c1_i32 : BitVec 32 := 1#32
  let arg6 : BitVec 32 := Scf.iv c0_i32 c1_i32 k0_t1
  let c1_i32_8 : BitVec 32 := 1#32
  let v15 : BitVec 32 := Scalar.muli arg6 c1_i32_8
  let v16 : BitVec 32 := Scalar.addi c0_i32_9 v15
  let c2000_i32 : BitVec 32 := 2000#32
  let v17 : BitVec 32 := Scalar.muli v16 c2000_i32
  let v18 : BitVec 32 := v17
  let v19 : Index := Scalar.indexCast v18
  let c0_10 : Index := 0#32
  ![v19.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![782], ![false]⟩

@[reducible] def k1_t1_loop : Scf.Loop 32 :=
  let c0_i32_3 : BitVec 32 := 0#32
  let c50_i32 : BitVec 32 := 50#32
  let v9 : BitVec 32 := Scalar.addi c0_i32_3 c50_i32
  let c1_i32 : BitVec 32 := 1#32
  ⟨c0_i32_3, v9, c1_i32⟩
def k1_mult1 (k1_t1 : Fin k1_t1_loop.trips) : BitVec 32 :=
  let c0_i32_6 : BitVec 32 := 0#32
  let c0_i32_3 : BitVec 32 := 0#32
  let c1_i32 : BitVec 32 := 1#32
  let arg4 : BitVec 32 := Scf.iv c0_i32_3 c1_i32 k1_t1
  let c1_i32_5 : BitVec 32 := 1#32
  let v10 : BitVec 32 := Scalar.muli arg4 c1_i32_5
  let v11 : BitVec 32 := Scalar.addi c0_i32_6 v10
  let c2000_i32 : BitVec 32 := 2000#32
  let v12 : BitVec 32 := Scalar.muli v11 c2000_i32
  v12
def k1_off1 (k1_t1 : Fin k1_t1_loop.trips) : Fin 2 → Nat :=
  let c0_i32_6 : BitVec 32 := 0#32
  let c0_i32_3 : BitVec 32 := 0#32
  let c1_i32 : BitVec 32 := 1#32
  let arg4 : BitVec 32 := Scf.iv c0_i32_3 c1_i32 k1_t1
  let c1_i32_5 : BitVec 32 := 1#32
  let v10 : BitVec 32 := Scalar.muli arg4 c1_i32_5
  let v11 : BitVec 32 := Scalar.addi c0_i32_6 v10
  let c2000_i32 : BitVec 32 := 2000#32
  let v12 : BitVec 32 := Scalar.muli v11 c2000_i32
  let v13 : BitVec 32 := v12
  let v24 : Index := Scalar.indexCast v13
  let c0_7 : Index := 0#32
  ![v24.toNat, 0]
def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100000x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  h_S2000x32 : 0 < S2000x32.numel
  shapeCasts_S2000x32_S2000x32 : S2000x32.ShapeCasts S2000x32
  iota_S2000x1_d0_w32 : S2000x1.Iotas .tc 32 [0]
  broadcasts_S1x2048_S2000x2048 : S1x2048.Broadcasts S2000x2048
  broadcasts_S2000x1_S2000x2048 : S2000x1.Broadcasts S2000x2048
  natLt_1_32 : 1 < 32
  shapeCasts_S2048_S2048x1 : S2048.ShapeCasts S2048x1
  broadcasts_S2048x1_S2048x32 : S2048x1.Broadcasts S2048x32
  inb_S100000x32_S100000x32_0_0 : ∀ a, (![0, 0] : Fin 2 → Nat) a + S100000x32.size a ≤ S100000x32.size a
  h_S100000x32 : 0 < S100000x32.numel
  dot_S2000x2048_S2000x32_S2048x32_0_0_1_1_n_n_wf : DotDims.WF S2000x2048 S2000x32 S2048x32 [0] [0] [1] [1] [] []
  dot_S2000x2048_S2048x32_S2000x32_1_0_0_1_n_n_wf : DotDims.WF S2000x2048 S2048x32 S2000x32 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S2000x32.size a ≤ S100000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1601536.size a
  hwx0_0 : ∀ i : grid0.Coords, EltTy.bits .i32 = 32 ∨ (Rect.block (s := S1601536) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S1601536.size a
  hwx0_1 : ∀ i : grid0.Coords, EltTy.bits .f32 = 32 ∨ (Rect.block (s := S1601536) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100000x32.size a ≤ S100000x32.size a
  hwx0_2 : ∀ i : grid0.Coords, EltTy.bits .bf16 = 32 ∨ (Rect.block (s := S100000x32) S100000x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S1601536x32.size a
  hwx0_3 : ∀ i : grid0.Coords, EltTy.bits .f32 = 32 ∨ (Rect.block (s := S1601536x32) S2048x32.size (cc0_transform_3 i) (hinb0_3 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S2000x32.size a ≤ S100000x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S1601536.size a
  hwx1_0 : ∀ i : grid1.Coords, EltTy.bits .i32 = 32 ∨ (Rect.block (s := S1601536) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S1601536x32.size a
  hwx1_1 : ∀ i : grid1.Coords, EltTy.bits .f32 = 32 ∨ (Rect.block (s := S1601536x32) S2048x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100000x32.size a ≤ S100000x32.size a
  hwx1_2 : ∀ i : grid1.Coords, EltTy.bits .f32 = 32 ∨ (Rect.block (s := S100000x32) S100000x32.size (cc1_transform_2 i) (hinb1_2 i)).WholeWords (EltTy.packing .f32)

variable [Facts₀]

def dot_S2000x2048_S2000x32_S2048x32_0_0_1_1_n_n : DotDims S2000x2048 S2000x32 S2048x32 where
  lhsContracting := [0]
  rhsContracting := [0]
  lhsNonContracting := [1]
  rhsNonContracting := [1]
  lhsBatch := []
  rhsBatch := []
  wf := dot_S2000x2048_S2000x32_S2048x32_0_0_1_1_n_n_wf
def dot_S2000x2048_S2048x32_S2000x32_1_0_0_1_n_n : DotDims S2000x2048 S2048x32 S2000x32 where
  lhsContracting := [1]
  rhsContracting := [0]
  lhsNonContracting := [0]
  rhsNonContracting := [1]
  lhsBatch := []
  rhsBatch := []
  wf := dot_S2000x2048_S2048x32_S2000x32_1_0_0_1_n_n_wf

abbrev win0_0 : Pipeline.Window sig grid0 :=
  Pipeline.Window.ofSpec (Memref.whole main_v5) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S100000x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S100000x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x32 : Shape := ⟨2, ![100000, 32]⟩
abbrev S1x1600000 : Shape := ⟨2, ![1, 1600000]⟩
abbrev S1600000x1 : Shape := ⟨2, ![1600000, 1]⟩
abbrev S_ : Shape := ⟨0, ![]⟩
abbrev S1600000x32 : Shape := ⟨2, ![1600000, 32]⟩

abbrev nBuf : Space → Nat
  | .hbm => 23
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x32, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S1600000x32, .f32⟩
  | .hbm, ⟨18, _⟩ => ⟨S1600000x32, .f32⟩
  | .hbm, ⟨19, _⟩ => ⟨S_, .f32⟩
  | .hbm, ⟨20, _⟩ => ⟨S100000x32, .f32⟩
  | .hbm, ⟨21, _⟩ => ⟨S1600000x1, .i32⟩
  | .hbm, ⟨22, _⟩ => ⟨S100000x32, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
/-
  Sparse matrix times dense matrix over an edge list, as plain functions of the argument arrays.

  An edge `e` carries a source node `src e`, a target node `dst e` (32-bit words) and a weight `a e`; `x` has one
  row of 32 features per node, 100000 nodes. The result row of node `n` is the sum, over the edges whose source is
  `n`, of the edge's weight times the feature row of its target.

  Two spellings of that sum are stated here. The first is the one a dense one-hot contraction computes: every edge
  of a list padded to 1601536 entries contributes, with weight one where its word equals the node number and zero
  elsewhere (`gatherScale`, then `scatterSum`). The second sums only over the edges whose source word is the node
  (`spmm`). `Proof/Algebra.lean` proves them equal when every target word is a node number.
-/
import Idealize.ShloMosaic.PureOps.Ideal
import Idealize.ShloMosaic.Lib.ValueIdx

noncomputable section

open scoped BigOperators

namespace Cert.Spmm

open Idealize.ShloMosaic Idealize.ShloMosaic.ValueIdx

/-- The edge list: row 0 the source words, row 1 the target words. -/
abbrev EdgeIdx : Type := (⟨2, ![2, 1600000]⟩ : Shape).Idx → BitVec 32
/-- One weight per edge. -/
abbrev EdgeAttr : Type := (⟨1, ![1600000]⟩ : Shape).Idx → EReal
/-- One row of 32 features per node. -/
abbrev Feat : Type := (⟨2, ![100000, 32]⟩ : Shape).Idx → EReal
/-- One word per entry of the padded edge list. -/
abbrev PadWords : Type := (⟨1, ![1601536]⟩ : Shape).Idx → BitVec 32
/-- One weight per entry of the padded edge list. -/
abbrev PadAttr : Type := (⟨1, ![1601536]⟩ : Shape).Idx → EReal
/-- One row of 32 numbers per entry of the padded edge list. -/
abbrev Msgs : Type := (⟨2, ![1601536, 32]⟩ : Shape).Idx → EReal

/-- The one-hot weight: one where the word `w` is the node number `n`, zero elsewhere. -/
def hot (w : BitVec 32) (n : ℕ) : EReal := if w = BitVec.ofNat 32 n then 1 else 0

/-- The source words padded to 1601536 entries with the all-ones word, which is no node number. -/
def srcPad (ei : EdgeIdx) : PadWords :=
  fun j => if h : (j 0).val < 1600000 then ei (ix2 0 ⟨(j 0).val, h⟩) else 4294967295#32
/-- The target words padded with zero. -/
def dstPad (ei : EdgeIdx) : PadWords :=
  fun j => if h : (j 0).val < 1600000 then ei (ix2 1 ⟨(j 0).val, h⟩) else 0#32
/-- The weights padded with zero. -/
def attrPad (a : EdgeAttr) : PadAttr :=
  fun j => if h : (j 0).val < 1600000 then a (ix1 ⟨(j 0).val, h⟩) else 0

/-- Entry `(e, d)`: the one-hot contraction of target word `e` against column `d` of `x` over all 100000 nodes,
    times the weight of `e`. -/
def gatherScale (dstP : PadWords) (attrP : PadAttr) (x : Feat) : Msgs :=
  fun j => (∑ n : Fin 100000, hot (dstP (ix1 (j 0))) n.val * x (ix2 n (j 1))) * attrP (ix1 (j 0))

/-- Entry `(n, d)`: the one-hot contraction of the source words against column `d` of the messages over all
    1601536 entries of the padded list. -/
def scatterSum (srcP : PadWords) (msgs : Msgs) : Feat :=
  fun i => ∑ e : Fin 1601536, hot (srcP (ix1 e)) (i 0).val * msgs (ix2 e (i 1))

/-- The row a target word names, read as a natural number and cut off at the last row. -/
def rowOf (w : BitVec 32) : Fin 100000 := ⟨min w.toNat 99999, by omega⟩

/-- Entry `(n, d)`: the sum over the edges whose source word is `n` of weight times feature `d` of the target's row. -/
def spmm (ei : EdgeIdx) (a : EdgeAttr) (x : Feat) : Feat :=
  fun i => ∑ e ∈ Finset.univ.filter (fun e : Fin 1600000 => ei (ix2 0 e) = BitVec.ofNat 32 (i 0).val),
    a (ix1 e) * x (ix2 (rowOf (ei (ix2 1 e))) (i 1))

end Cert.Spmm

end
-- ==== Proof.Algebra.lean ====
/-
  The two spellings of the sparse product are one function when every target word is a node number.

  In the dense spelling each of the 1601536 entries of the padded list contributes to every node, with a weight that is
  one where its source word is the node number and zero elsewhere. The 1536 padding entries carry the all-ones word, which
  is no node number below 100000, so they contribute zero; an edge whose source word is not the node contributes zero; an
  edge whose source word is the node contributes its message. Its message is the weight times the one-hot contraction of
  its target word over all nodes, and a word that IS a node number picks out exactly that node's row. On the extended
  reals the laws used are `1 * v = v`, `0 * v = 0`, `v + 0 = v` and the commutativity of the product; nothing is
  distributed and nothing cancelled, so no finiteness is needed.
-/
import proofs.«423643_j76055280877648_2_alg».proof.Proof.Spec
import Mathlib.Algebra.BigOperators.Fin
import Mathlib.Algebra.BigOperators.Ring.Finset

noncomputable section

open scoped BigOperators

namespace Cert.Spmm

open Idealize.ShloMosaic Idealize.ShloMosaic.ValueIdx

/-- A sum over `Fin n` whose terms vanish from position `m` on is the sum over the first `m` positions. -/
theorem sum_fin_castLE {M : Type*} [AddCommMonoid M] {m n : ℕ} (h : m ≤ n) (f : Fin n → M)
    (hf : ∀ j : Fin n, m ≤ j.val → f j = 0) :
    ∑ j : Fin n, f j = ∑ e : Fin m, f (Fin.castLE h e) := by
  have hmap : ∑ e : Fin m, f (Fin.castLE h e) = ∑ j ∈ Finset.univ.map (Fin.castLEEmb h), f j := by
    rw [Finset.sum_map]; rfl
  rw [hmap]
  symm
  apply Finset.sum_subset (Finset.subset_univ _)
  intro j _ hj
  apply hf
  by_contra hlt
  apply hj
  rw [Finset.mem_map]
  exact ⟨⟨j.val, by omega⟩, Finset.mem_univ _, Fin.ext rfl⟩

/-- A word equals the word of a number below `2 ^ 32` exactly when its value is that number. -/
theorem eq_ofNat_iff (w : BitVec 32) (k : ℕ) (hk : k < 4294967296) : w = BitVec.ofNat 32 k ↔ w.toNat = k := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- The all-ones word is the word of no number below 100000, so its one-hot weight at such a number is zero. -/
theorem hot_allOnes (n : ℕ) (hn : n < 100000) : hot 4294967295#32 n = 0 := by
  unfold hot
  rw [if_neg]
  intro h
  have := (eq_ofNat_iff _ n (by omega)).1 h
  rw [BitVec.toNat_ofNat] at this
  omega

/-- The one-hot contraction of a word that is a node number against a column of `x` is that node's entry. -/
theorem sum_hot (w : BitVec 32) (hw : w.toNat < 100000) (x : Feat) (d : Fin 32) :
    ∑ k : Fin 100000, hot w k.val * x (ix2 k d) = x (ix2 (rowOf w) d) := by
  have hrow : (rowOf w).val = w.toNat := by
    show min w.toNat 99999 = w.toNat
    omega
  rw [Finset.sum_eq_single (rowOf w)]
  · unfold hot
    rw [if_pos ((eq_ofNat_iff w _ (by omega)).2 hrow.symm), one_mul]
  · intro k _ hk
    unfold hot
    rw [if_neg, zero_mul]
    intro h
    apply hk
    apply Fin.ext
    rw [hrow]
    exact ((eq_ofNat_iff w _ (by omega)).1 h).symm
  · intro h
    exact absurd (Finset.mem_univ _) h

/-- The dense one-hot spelling over the padded edge list is the sum over the edges leaving each node. -/
theorem scatterSum_gatherScale (ei : EdgeIdx) (a : EdgeAttr) (x : Feat)
    (hdst : ∀ e : Fin 1600000, (ei (ix2 1 e)).toNat < 100000) :
    scatterSum (srcPad ei) (gatherScale (dstPad ei) (attrPad a) x) = spmm ei a x := by
  funext i
  obtain ⟨n, d, rfl⟩ : ∃ (n : Fin 100000) (d : Fin 32), i = ix2 n d := ⟨i 0, i 1, eq_ix2 i⟩
  have hle : 1600000 ≤ 1601536 := by omega
  show ∑ e : Fin 1601536, hot (srcPad ei (ix1 e)) n.val *
      ((∑ k : Fin 100000, hot (dstPad ei (ix1 e)) k.val * x (ix2 k d)) * attrPad a (ix1 e)) =
    ∑ e ∈ Finset.univ.filter (fun e : Fin 1600000 => ei (ix2 0 e) = BitVec.ofNat 32 n.val),
      a (ix1 e) * x (ix2 (rowOf (ei (ix2 1 e))) d)
  rw [sum_fin_castLE hle]
  · rw [Finset.sum_filter]
    refine Finset.sum_congr rfl (fun e _ => ?_)
    have hs : srcPad ei (ix1 (Fin.castLE hle e)) = ei (ix2 0 e) := dif_pos e.isLt
    have hd : dstPad ei (ix1 (Fin.castLE hle e)) = ei (ix2 1 e) := dif_pos e.isLt
    have ha : attrPad a (ix1 (Fin.castLE hle e)) = a (ix1 e) := dif_pos e.isLt
    rw [hs, hd, ha, sum_hot _ (hdst e)]
    unfold hot
    rw [ite_mul, one_mul, zero_mul, mul_comm]
  · intro j hj
    have hs : srcPad ei (ix1 j) = 4294967295#32 := dif_neg (by show ¬ j.val < 1600000; omega)
    rw [hs, hot_allOnes _ n.isLt, zero_mul]

end Cert.Spmm

end
-- ==== Proof.PreRange.lean ====
/-
  What the precondition says of the target words. Its last two conjuncts compare row 1 of the edge list, word by word
  and as signed integers, with 0 from below and with 100000 from above, and ask that every comparison hold. A 32-bit
  word that is at least 0 and below 100000 as a signed integer is below 100000 as a natural number.
-/
import proofs.«423643_j76055280877648_2_alg».proof.Pre_finite_inputs
import proofs.«423643_j76055280877648_2_alg».proof.Proof.Spec
import Idealize.ShloMosaic.Lib.StableHlo.Predicate
import Idealize.ShloMosaic.Lib.ReduceAll
import Idealize.ShloMosaic.Lib.ValueIdx
import Idealize.ShloMosaic.Lib.Pipeline.Value

noncomputable section

namespace Cert.Spmm

open Idealize.ShloMosaic Idealize.ShloMosaic.ValueIdx

/-- A 32-bit word that is at least 0 and below 100000 as a signed integer is below 100000 as a natural number: a word
    whose top bit is set reads negative as a signed integer, so the first comparison rules it out, and below 2³¹ the
    signed and the unsigned readings agree. -/
theorem preRange_toNat_lt_of_signed (w : BitVec 32) (h0 : IntOp.cmpi .sge w 0#32 = 1#1)
    (h1 : IntOp.cmpi .slt w 100000#32 = 1#1) : w.toNat < 100000 := by
  unfold IntOp.cmpi at h0 h1
  simp only [StableHlo.Predicate.ofBool_eq_one_iff, BitVec.sle, BitVec.slt, decide_eq_true_eq] at h0 h1
  have c0 : (0#32 : BitVec 32).toInt = 0 := by decide
  have c1 : (100000#32 : BitVec 32).toInt = 100000 := by decide
  rw [c0] at h0; rw [c1] at h1
  rw [BitVec.toInt_eq_toNat_cond] at h0 h1
  split at h0 <;> omega

/-- The scalar shape has one index. -/
theorem preRange_scalar_subsingleton : Subsingleton Cert.Pre_finite_inputs.S_.Idx :=
  ⟨fun _ _ => funext fun d => d.elim0⟩

/-- Row 1 of the edge list, cut out as a [1 × 1600000] rectangle and flattened, read at position `e`, is the target
    word of edge `e`: position `e` of the flat vector is entry (0, e) of the rectangle (same row-major position),
    which is entry (1, e) of the edge list (the cut starts at row 1, column 0). -/
theorem preRange_dst_read [Cert.Pre_finite_inputs.Facts] (ei : EdgeIdx) (e : Fin 1600000) :
    shapeCast Cert.Pre_finite_inputs.S1600000
      (extractStridedSlice Cert.Pre_finite_inputs.S1x1600000 ![1, 0] ei
        Cert.Pre_finite_inputs.Facts.slices_S2x1600000_S1x1600000_1_0)
      Cert.Pre_finite_inputs.Facts.shapeCasts_S1x1600000_S1600000 (ix1 e) = ei (ix2 1 e) := by
  rw [shapeCast_apply _ Cert.Pre_finite_inputs.Facts.shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei Cert.Pre_finite_inputs.Facts.slices_S2x1600000_S1x1600000_1_0
    (ix2 (0 : Fin 1) e) (ix2 1 e) (fun a => match a with
      | ⟨0, _⟩ => by show 1 = 1 + 0; omega
      | ⟨1, _⟩ => by show e.val = 0 + e.val; omega)

/-- Under the precondition every target word is a node number. The precondition is a conjunction of four one-bit
    scalars; the third says every target word is at least 0 as a signed integer, the fourth that every target word is
    below 100000 as a signed integer. A conjunction of bits is one only when both are, and an and-reduction to a scalar
    is one only when every entry is; the two comparisons at edge `e` then bound the word of edge `e`. -/
theorem dst_lt_of_pre [Cert.Pre_finite_inputs.Facts] (ei : EdgeIdx) (a : EdgeAttr) (x : Feat)
    (h : Cert.Pre_finite_inputs.fn (F := Ideal) ei a x = fun _ => 1#1) :
    ∀ e : Fin 1600000, (ei (ix2 1 e)).toNat < 100000 := by
  intro e
  haveI := preRange_scalar_subsingleton
  -- the precondition at the scalar's one index, with its operations in view
  have h0 := congrFun h ix0
  dsimp only [Cert.Pre_finite_inputs.fn, Cert.Pre_finite_inputs.fn_part1] at h0
  -- the last conjunct (every word below 100000), then the one before it (every word at least 0)
  obtain ⟨h1, hlt⟩ := IntOp.andi_eq_one.1 h0
  obtain ⟨_, hge⟩ := IntOp.andi_eq_one.1 h1
  -- each and-reduction is one, so its entry at edge `e` is one
  have hge' := Host.reduce_andi_all _ _ _ _ ix0 hge (ix1 e)
  have hlt' := Host.reduce_andi_all _ _ _ _ ix0 hlt (ix1 e)
  -- both comparisons read the target word of edge `e` against the constant
  refine preRange_toNat_lt_of_signed _ ?_ ?_
  · rw [← preRange_dst_read ei e]; exact hge'
  · rw [← preRange_dst_read ei e]; exact hlt'

end Cert.Spmm

end
-- ==== Proof.HostGlue.lean ====
/-
  The arrays the two regions find, read back to the program's arguments. Before the first region the host operations cut
  the edge list into its row of source words and its row of target words, pad each to 1601536 entries (the source words
  with the all-ones word, the target words with zero), pad the weights with zero, and change the features' float format,
  which on the extended reals is the identity.
-/
import proofs.«423643_j76055280877648_2_alg».proof.Proof.Gen.KernelIdeal.Frame
import proofs.«423643_j76055280877648_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Spmm.Host

open Idealize.ShloMosaic Idealize.ShloMosaic.TcCoe Idealize.ShloMosaic.ValueIdx Idealize.SL.Sem
open Idealize.ShloMosaic.StableHlo
open Cert.KernelIdeal Cert.KernelIdeal.Gen

/-- A list of 1600000 entries padded at its end to 1601536: entry `j` is the list's own below 1600000 and the padding
    value from there on. -/
theorem pad_tail_apply {α : Type} (x : S1600000.Idx → α) (v : S_.Idx → α) (j : S1601536.Idx) :
    pad S1601536 ![0] ![1536] ![0] x v Facts₀.pads_S1600000_S1601536_015360 Facts₀.h_S_ j
      = if h : (j 0).val < 1600000 then x (ix1 ⟨(j 0).val, h⟩) else v ix0 := by
  unfold pad
  by_cases h : (j 0).val < 1600000
  · rw [dif_pos h, dif_pos (fun a => by
      match a with
      | ⟨0, _⟩ => exact ⟨Nat.zero_le _, Nat.mod_one _, by simpa using h⟩)]
    refine congrArg x (funext fun a => ?_)
    match a with
    | ⟨0, _⟩ => exact Fin.ext (by show ((j 0).val - 0) / (0 + 1) = (j 0).val; simp)
  · rw [dif_neg h, dif_neg (fun hin => h (by simpa using (hin 0).2.2))]
    exact congrArg v (eq_ix0 _)

/-- Row 0 of the edge list, cut out and flattened, at entry `e`. -/
theorem row0_apply (ei : S2x1600000.Idx → BitVec 32) (e : Fin 1600000) :
    shapeCast S1600000 (extractStridedSlice S1x1600000 ![0, 0] ei Facts₀.slices_S2x1600000_S1x1600000_0_0)
      Facts₀.shapeCasts_S1x1600000_S1600000 (ix1 e) = ei (ix2 0 e) := by
  rw [shapeCast_apply _ Facts₀.shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] ei Facts₀.slices_S2x1600000_S1x1600000_0_0 (ix2 (0 : Fin 1) e) (ix2 0 e) (fun a => match a with
    | ⟨0, _⟩ => by show 0 = 0 + 0; omega
    | ⟨1, _⟩ => by show e.val = 0 + e.val; omega)

/-- Row 1 of the edge list, cut out and flattened, at entry `e`. -/
theorem row1_apply (ei : S2x1600000.Idx → BitVec 32) (e : Fin 1600000) :
    shapeCast S1600000 (extractStridedSlice S1x1600000 ![1, 0] ei Facts₀.slices_S2x1600000_S1x1600000_1_0)
      Facts₀.shapeCasts_S1x1600000_S1600000 (ix1 e) = ei (ix2 1 e) := by
  rw [shapeCast_apply _ Facts₀.shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei Facts₀.slices_S2x1600000_S1x1600000_1_0 (ix2 (0 : Fin 1) e) (ix2 1 e) (fun a => match a with
    | ⟨0, _⟩ => by show 1 = 1 + 0; omega
    | ⟨1, _⟩ => by show e.val = 0 + e.val; omega)

variable (m : (ℓ : Loc nD τ sig) → Buf (Elt Ideal) ℓ) (ρ : Dev nD → PrngReg)

/-- The features the first region finds are the argument's: the format change is the identity on the extended reals. -/
theorem feats (c : Dev nD) :
    W7 (F := Ideal) m ρ c (Proc.devRef .tc main_v7) = m ((c : Thread nD τ).loc main_arg2) := by
  show StableHlo.after hostOps0_6 (W6 m ρ c) (Proc.devRef .tc main_v7) = _
  after_results
  rfl

/-- The target words the first region finds: row 1 of the edge list padded with zero. -/
theorem dst_words (c : Dev nD) :
    W7 (F := Ideal) m ρ c (Proc.devRef .tc main_v5) = Cert.Spmm.dstPad (m ((c : Thread nD τ).loc main_arg0)) := by
  show StableHlo.after hostOps0_6 (W6 m ρ c) (Proc.devRef .tc main_v5) = _
  after_results
  funext j
  refine (pad_tail_apply (α := BitVec 32) (shapeCast S1600000 (extractStridedSlice S1x1600000 ![1, 0] (m ((c : Thread nD τ).loc main_arg0)) Facts₀.slices_S2x1600000_S1x1600000_1_0) Facts₀.shapeCasts_S1x1600000_S1600000) (constantI S_ 32 0#32) j).trans ?_
  unfold Cert.Spmm.dstPad
  by_cases h : (j 0).val < 1600000
  · rw [dif_pos h, dif_pos h]; exact row1_apply _ _
  · rw [dif_neg h, dif_neg h]; rfl

/-- The source words the second region finds: row 0 of the edge list padded with the all-ones word. -/
theorem src_words (c : Dev nD) :
    W7 (F := Ideal) m ρ c (Proc.devRef .tc main_v4) = Cert.Spmm.srcPad (m ((c : Thread nD τ).loc main_arg0)) := by
  show StableHlo.after hostOps0_6 (W6 m ρ c) (Proc.devRef .tc main_v4) = _
  after_results
  funext j
  refine (pad_tail_apply (α := BitVec 32) (shapeCast S1600000 (extractStridedSlice S1x1600000 ![0, 0] (m ((c : Thread nD τ).loc main_arg0)) Facts₀.slices_S2x1600000_S1x1600000_0_0) Facts₀.shapeCasts_S1x1600000_S1600000) (constantI S_ 32 4294967295#32) j).trans ?_
  unfold Cert.Spmm.srcPad
  by_cases h : (j 0).val < 1600000
  · rw [dif_pos h, dif_pos h]; exact row0_apply _ _
  · rw [dif_neg h, dif_neg h]; rfl

/-- The weights the first region finds: the argument's padded with zero. -/
theorem weights (c : Dev nD) :
    W7 (F := Ideal) m ρ c (Proc.devRef .tc main_v6) = Cert.Spmm.attrPad (m ((c : Thread nD τ).loc main_arg1)) := by
  show StableHlo.after hostOps0_6 (W6 m ρ c) (Proc.devRef .tc main_v6) = _
  after_results
  funext j
  refine (pad_tail_apply (α := EReal) (m ((c : Thread nD τ).loc main_arg1)) (sitofp (F := Ideal) .f32 (constantI S_ 32 0#32)) j).trans ?_
  unfold Cert.Spmm.attrPad
  by_cases h : (j 0).val < 1600000
  · rw [dif_pos h, dif_pos h]
  · rw [dif_neg h, dif_neg h]
    show ((((0#32 : BitVec 32).toInt : ℝ)) : EReal) = 0
    simp

end Cert.Spmm.Host

end
-- ==== Proof.GatherRegion.lean ====
/-
  The first region, read as a value. At grid point `t` the body holds the `t`-th block of 2048 target words and of 2048
  weights and the whole feature array. It clears a 2048×32 accumulator, then in 50 trips adds to it the contraction
  of the one-hot comparison of the words against the node numbers `2000·k … 2000·k + 1999` with rows
  `2000·k … 2000·k + 1999` of the features; after the trips every node number has been met once, so row `e` of the
  accumulator is the one-hot contraction of word `e` over all 100000 nodes. The stored block is that times the weights.
  The 782 blocks tile the 1601536 rows of the message array.
-/
import proofs.«423643_j76055280877648_2_alg».proof.Proof.Gen.KernelIdeal.Frame
import proofs.«423643_j76055280877648_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Spmm.Gather

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One trip's update, entry by entry

The contraction pairs axis 0 of the 2000×2048 comparison matrix with axis 0 of the 2000×32 block of feature rows: at
output entry `(e, d)` and contraction position `k` the left operand is read at `(k, e)` and the right one at `(k, d)`. -/

theorem lhs_0 (j : S2048x32.Idx) (k : dot_S2000x2048_S2000x32_S2048x32_0_0_1_1_n_n.contr.Idx) :
    (dot_S2000x2048_S2000x32_S2048x32_0_0_1_1_n_n.lhsIdx j k 0 : ℕ) = k ⟨0, by decide⟩ := by
  simp [DotDims.lhsIdx, dot_S2000x2048_S2000x32_S2048x32_0_0_1_1_n_n]; rfl
theorem lhs_1 (j : S2048x32.Idx) (k : dot_S2000x2048_S2000x32_S2048x32_0_0_1_1_n_n.contr.Idx) :
    (dot_S2000x2048_S2000x32_S2048x32_0_0_1_1_n_n.lhsIdx j k 1 : ℕ) = j 0 := by
  simp [DotDims.lhsIdx, dot_S2000x2048_S2000x32_S2048x32_0_0_1_1_n_n]; rfl
theorem rhs_0 (j : S2048x32.Idx) (k : dot_S2000x2048_S2000x32_S2048x32_0_0_1_1_n_n.contr.Idx) :
    (dot_S2000x2048_S2000x32_S2048x32_0_0_1_1_n_n.rhsIdx j k 0 : ℕ) = k ⟨0, by decide⟩ := by
  simp [DotDims.rhsIdx, dot_S2000x2048_S2000x32_S2048x32_0_0_1_1_n_n]; rfl
theorem rhs_1 (j : S2048x32.Idx) (k : dot_S2000x2048_S2000x32_S2048x32_0_0_1_1_n_n.contr.Idx) :
    (dot_S2000x2048_S2000x32_S2048x32_0_0_1_1_n_n.rhsIdx j k 1 : ℕ) = j 1 := by
  simp [DotDims.rhsIdx, dot_S2000x2048_S2000x32_S2048x32_0_0_1_1_n_n]; rfl

/-- The comparison bit of two words, widened and read as a number, is one where the words are equal and zero elsewhere. -/
theorem onehot_word (w x : BitVec 32) :
    FloatOps.sitofp (F := Ideal) .f32 ((IntOp.cmpi .eq w x).setWidth 32) = if w = x then 1 else 0 := by
  by_cases h : w = x
  · subst h
    simp only [IntOp.cmpi, beq_self_eq_true, BitVec.ofBool_true, if_true]
    show (((BitVec.setWidth 32 1#1).toInt : ℝ) : EReal) = 1
    rw [show (BitVec.setWidth 32 1#1).toInt = 1 from by decide]
    simp
  · have hb : (w == x) = false := by simpa using h
    simp only [IntOp.cmpi, hb, BitVec.ofBool_false, if_neg h]
    show (((BitVec.setWidth 32 0#1).toInt : ℝ) : EReal) = 0
    rw [show (BitVec.setWidth 32 0#1).toInt = 0 from by decide]
    simp

/-- Row `c` of trip `k` compares against the word of the node number `2000·k + c` (no 32-bit sum here wraps). -/
theorem node_word (k : Fin k0_t1_loop.trips) (c : Fin 2000) :
    IntOp.addi (Scalar.muli (Scalar.addi 0#32 (Scalar.muli (Scf.iv 0#32 1#32 k) 1#32)) 2000#32) (BitVec.ofNat 32 c.val)
      = BitVec.ofNat 32 (2000 * k.val + c.val) := by
  simp [IntOp.addi, Scalar.muli, Scalar.addi, IntOp.muli, Scf.iv, BitVec.ofNat_add, BitVec.ofNat_mul, mul_comm]

/-- The contraction read at an entry: column `e` of the left operand against column `d` of the right one, over
    their 2000 common rows. -/
theorem matmul_read (L : FVec Ideal S2000x2048 .bf16) (R : FVec Ideal S2000x32 .bf16) (e : Fin 2048) (d : Fin 32) :
    matmul dot_S2000x2048_S2000x32_S2048x32_0_0_1_1_n_n none L R (constant S2048x32 .f32 0x00000000#32) (ix2 e d)
      = ∑ c : Fin 2000, L (ix2 c e) * R (ix2 c d) := by
  refine (Ideal.matmul_constant_zero_apply dot_S2000x2048_S2000x32_S2048x32_0_0_1_1_n_n none L R (ix2 e d)).trans ?_
  rw [← Equiv.sum_comp (contrEquiv1 dot_S2000x2048_S2000x32_S2048x32_0_0_1_1_n_n 2000 rfl rfl).symm]
  refine Finset.sum_congr rfl fun c _ => ?_
  have hk : (((contrEquiv1 dot_S2000x2048_S2000x32_S2048x32_0_0_1_1_n_n 2000 rfl rfl).symm c) ⟨0, by decide⟩ : ℕ) = c.val :=
    contrEquiv1_symm_val dot_S2000x2048_S2000x32_S2048x32_0_0_1_1_n_n 2000 rfl rfl c
  congr 2
  · apply Shape.idx_ext₂
    · exact (lhs_0 _ _).trans hk
    · exact lhs_1 _ _
  · apply Shape.idx_ext₂
    · exact (rhs_0 _ _).trans hk
    · exact rhs_1 _ _

/-- The comparison matrix of trip `k` read at an entry: one where word `e` is node number `2000·k + c`. -/
theorem onehot_read (v4 : Vec Ideal S2048 .i32) (k : Fin k0_t1_loop.trips) (c : Fin 2000) (e : Fin 2048) :
    (truncf .bf16
        (sitofp (F := Ideal) .f32
          (extui 32
            (cmpi CmpIPredicate.eq
              (broadcastTo S2000x2048 (shapeCast S1x2048 (shapeCast S2048 v4 shapeCasts_S2048_S2048) shapeCasts_S2048_S1x2048) broadcasts_S1x2048_S2000x2048)
              (broadcastTo S2000x2048
                (addi
                  (broadcast S2000x1
                    (Scalar.muli (Scalar.addi (0#32) (Scalar.muli (Scf.iv 0#32 1#32 k) 1#32)) 2000#32))
                  (iota Kind.tc S2000x1 32 [0] iota_S2000x1_d0_w32))
                broadcasts_S2000x1_S2000x2048))
            natLt_1_32))
        bitsLt_bf16_f32 : FVec Ideal S2000x2048 .bf16) (ix2 c e)
      = Cert.Spmm.hot (v4 (ix1 e)) (2000 * k.val + c.val) := by
  rw [shapeCast_self]
  have h1 : broadcastTo S2000x2048 (shapeCast S1x2048 v4 shapeCasts_S2048_S1x2048) broadcasts_S1x2048_S2000x2048 (ix2 c e)
      = v4 (ix1 e) := by
    refine (broadcastTo_apply _ _ (ix2 c e) (ix2 (0 : Fin 1) e) ?_).trans ?_
    · intro a
      match a with
      | ⟨0, _⟩ => rfl
      | ⟨1, _⟩ => rfl
    · refine (shapeCast_addUnit_apply ![2048] v4 shapeCasts_S2048_S1x2048 (ix2 (0 : Fin 1) e)).trans ?_
      refine congrArg v4 (funext fun a => ?_)
      match a with
      | ⟨0, _⟩ => rfl
  have h2 : broadcastTo S2000x2048
        (addi (broadcast S2000x1 (Scalar.muli (Scalar.addi (0#32) (Scalar.muli (Scf.iv 0#32 1#32 k) 1#32)) 2000#32))
          (iota Kind.tc S2000x1 32 [0] iota_S2000x1_d0_w32)) broadcasts_S2000x1_S2000x2048 (ix2 c e)
      = BitVec.ofNat 32 (2000 * k.val + c.val) := by
    refine (broadcastTo_apply _ _ (ix2 c e) (ix2 c (0 : Fin 1)) ?_).trans ?_
    · intro a
      match a with
      | ⟨0, _⟩ => rfl
      | ⟨1, _⟩ => rfl
    · show IntOp.addi _ (iota Kind.tc S2000x1 32 [0] iota_S2000x1_d0_w32 (ix2 c (0 : Fin 1))) = _
      rw [iota_single_apply]
      exact node_word k c
  show FloatOps.sitofp (F := Ideal) .f32 ((IntOp.cmpi .eq
      (broadcastTo S2000x2048 (shapeCast S1x2048 v4 shapeCasts_S2048_S1x2048) broadcasts_S1x2048_S2000x2048 (ix2 c e))
      (broadcastTo S2000x2048
        (addi (broadcast S2000x1 (Scalar.muli (Scalar.addi (0#32) (Scalar.muli (Scf.iv 0#32 1#32 k) 1#32)) 2000#32))
          (iota Kind.tc S2000x1 32 [0] iota_S2000x1_d0_w32)) broadcasts_S2000x1_S2000x2048 (ix2 c e))).setWidth 32) = _
  rw [h1, h2, onehot_word]
  rfl

/-- One trip's update at entry `(e, d)`: what the accumulator held plus the terms of the trip's 2000 node numbers. -/
theorem pay2_apply (v4 : Vec Ideal S2048 .i32) (k : Fin k0_t1_loop.trips) (v20 : Vec Ideal S2000x32 .bf16)
    (v32 : Vec Ideal S2048x32 .f32) (e : Fin 2048) (d : Fin 32) :
    k0_pay2 (F := Ideal) v4 k v20 v32 (ix2 e d)
      = v32 (ix2 e d) + ∑ r : Fin 2000, Cert.Spmm.hot (v4 (ix1 e)) (2000 * k.val + r.val) * v20 (ix2 r d) := by
  unfold k0_pay2
  simp only [shapeCast_self]
  refine (addf_apply _ _ _).trans ?_
  refine congrArg (v32 (ix2 e d) + ·) ?_
  refine (matmul_read _ v20 e d).trans ?_
  refine Finset.sum_congr rfl fun c _ => ?_
  refine congrArg (· * v20 (ix2 c d)) ?_
  have := onehot_read v4 k c e
  rw [shapeCast_self] at this
  exact this

/-! ## The trips of the loop -/

theorem hz2 : (![0, 0] : Fin 2 → Nat) = fun _ => 0 := funext fun a => by fin_cases a <;> rfl
theorem hz1 : (![0] : Fin 1 → Nat) = fun _ => 0 := funext fun a => by fin_cases a; rfl

/-- The loop makes 50 trips. -/
theorem trips_eq : k0_t1_loop.trips = 50 := by decide +kernel

section Trips

variable {F : FTy → Type} [FloatOps F]

/-- A load of the whole accumulator after ONE store of the whole accumulator reads what was stored. -/
theorem readAt_whole_writes_whole {sig' : RefSig} {κ : Kind} {sp : Space} (v : View sig' κ sp S2048x32 .f32)
    (f : v.ty.Contents (Elt F)) (w : S2048x32.Idx → Elt F .f32) :
    v.readAt (Elt F) (Rect.unit ![0, 0] S2048x32.size inb_S2048x32_S2048x32_0_0).toLoadRect
        (v.writes (Elt F) f [⟨Rect.unit ![0, 0] S2048x32.size inb_S2048x32_S2048x32_0_0, w⟩]) = w := by
  rw [View.readAt_eq_ld, View.read_writes_eq_canon _ _ _ (fun y => ⟨_, List.mem_singleton_self _,
      View.mem_set_unit_zero hz2 inb_S2048x32_S2048x32_0_0 y⟩), View.canon_unit_zero hz2, View.ld_unit_zero hz2]

variable (c : Dev nD) (i : grid0.Coords) (arg1 : Memref sig .tc .vmem S2048 .i32) (harg1 : arg1.IsWhole)
  (arg2 : Memref sig .tc .vmem S2048 .f32) (harg2 : arg2.IsWhole) (arg3 : Memref sig .tc .vmem S100000x32 .bf16) (harg3 : arg3.IsWhole)
  (arg4 : Memref sig .tc .vmem S2048x32 .f32) (harg4 : arg4.IsWhole) (arg5 : Memref sig .tc .vmem S2048x32 .f32) (harg5 : arg5.IsWhole)
  (v4 : Vec F S2048 .i32) (X3 : BufTy.Contents (Elt F) arg3.view.ty) (G5 : BufTy.Contents (Elt F) arg5.view.ty)

/-- What one trip stores: the whole accumulator, at the trip's update of what it finds there. -/
theorem trip_piece (k : Fin k0_t1_loop.trips) (f : BufTy.Contents (Elt F) arg5.view.ty) :
    tripL_k0_t1 (F := F) Variants.none c none i arg1 harg1 arg2 harg2 arg3 harg3 arg4 harg4 arg5 harg5 v4 X3 k f
      = [⟨Rect.unit ![0, 0] S2048x32.size inb_S2048x32_S2048x32_0_0,
          k0_pay2 v4 k (View.readAt (Elt F) arg3.view (Rect.unit (s := S100000x32) (k0_off1 k) S2000x32.size (k0_off1_inb k)).toLoadRect X3)
            (View.readAt (Elt F) arg5.view (Rect.unit ![0, 0] S2048x32.size inb_S2048x32_S2048x32_0_0).toLoadRect f)⟩] := by
  unfold tripL_k0_t1 trip_k0_t1
  rfl

/-- The accumulator as a load reads it after the trips before `n`. -/
def accAt (n : ℕ) : Vec F S2048x32 .f32 :=
  View.readAt (Elt F) arg5.view (Rect.unit ![0, 0] S2048x32.size inb_S2048x32_S2048x32_0_0).toLoadRect
    (arg5.view.writes (Elt F) G5
      (pb_k0_t1 (F := F) Variants.none c none i arg1 harg1 arg2 harg2 arg3 harg3 arg4 harg4 arg5 harg5 v4 X3 G5 n))

/-- Before the first trip it is what the loop found there. -/
theorem accAt_zero :
    accAt c i arg1 harg1 arg2 harg2 arg3 harg3 arg4 harg4 arg5 harg5 v4 X3 G5 0
      = View.readAt (Elt F) arg5.view (Rect.unit ![0, 0] S2048x32.size inb_S2048x32_S2048x32_0_0).toLoadRect G5 := by
  unfold accAt
  rw [pb_k0_t1.eq_1, View.writes_nil]

/-- One trip: the accumulator after trip `k` is the trip's update of the accumulator before it. -/
theorem accAt_succ (k : Fin k0_t1_loop.trips) :
    accAt c i arg1 harg1 arg2 harg2 arg3 harg3 arg4 harg4 arg5 harg5 v4 X3 G5 (k.val + 1)
      = k0_pay2 v4 k (View.readAt (Elt F) arg3.view (Rect.unit (s := S100000x32) (k0_off1 k) S2000x32.size (k0_off1_inb k)).toLoadRect X3)
          (accAt c i arg1 harg1 arg2 harg2 arg3 harg3 arg4 harg4 arg5 harg5 v4 X3 G5 k.val) := by
  unfold accAt
  rw [pb_k0_t1_succ, View.writes_append, trip_piece, readAt_whole_writes_whole]

end Trips

section Out

variable {F : FTy → Type} [FloatOps F]

/-- What the body leaves in the output block: the accumulator after all the trips, started from the cleared
    accumulator, times the weights. -/
theorem out_eq (c : Dev nD) (i : grid0.Coords) (arg1 : Memref sig .tc .vmem S2048 .i32) (harg1 : arg1.IsWhole)
    (arg2 : Memref sig .tc .vmem S2048 .f32) (harg2 : arg2.IsWhole) (arg3 : Memref sig .tc .vmem S100000x32 .bf16) (harg3 : arg3.IsWhole)
    (arg4 : Memref sig .tc .vmem S2048x32 .f32) (harg4 : arg4.IsWhole) (arg5 : Memref sig .tc .vmem S2048x32 .f32) (harg5 : arg5.IsWhole)
    (x0 : Vec F S2048 .i32) (x1 : Vec F S2048 .f32) (x2 : Vec F S100000x32 .bf16) :
    out0_A_3 c i arg1 harg1 arg2 harg2 arg3 harg3 arg4 harg4 arg5 harg5 x0 x1 x2
      = k0_pay3 x1 (accAt c i arg1 harg1 arg2 harg2 arg3 harg3 arg4 harg4 arg5 harg5 x0 (harg3.unread x2)
          (arg5.view.writes (Elt F) arg5.view.junk [⟨Rect.unit ![0, 0] S2048x32.size inb_S2048x32_S2048x32_0_0, k0_pay1⟩])
          k0_t1_loop.trips) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz2, View.writes_append]
  unfold accAt
  simp only [View.readAt_eq_ld, harg1.read_unread, harg2.read_unread, View.ld_unit_zero (S := S2048) hz1]

end Out

section AtIdeal

/-- Node `m`'s term of the one-hot contraction of the word `w` against column `d` of the features `x` (zero past the
    last node, so that the terms are indexed by the natural numbers). -/
def nodeTerm (w : BitVec 32) (x : Vec Ideal S100000x32 .bf16) (d : Fin 32) (m : ℕ) : EReal :=
  if h : m < 100000 then Cert.Spmm.hot w m * x (ix2 ⟨m, h⟩ d) else 0

/-- The rows of the features a trip loads: row `r` of the load is row `2000·k + r` of the array. -/
theorem rows_read (arg3 : Memref sig .tc .vmem S100000x32 .bf16) (harg3 : arg3.IsWhole) (x2 : Vec Ideal S100000x32 .bf16)
    (k : Fin k0_t1_loop.trips) (r : Fin 2000) (d : Fin 32) (h : 2000 * k.val + r.val < 100000) :
    View.readAt (Elt Ideal) arg3.view (Rect.unit (s := S100000x32) (k0_off1 k) S2000x32.size (k0_off1_inb k)).toLoadRect
        (harg3.unread x2) (ix2 r d) = x2 (ix2 ⟨2000 * k.val + r.val, h⟩ d) := by
  rw [View.readAt_eq_ld, harg3.read_unread]
  show x2 ((Rect.unit (s := S100000x32) (k0_off1 k) S2000x32.size (k0_off1_inb k)).idx (ix2 r d)) = _
  refine congrArg x2 (funext fun a => Fin.ext ?_)
  have e0 : k0_off1 k 0 = 2000 * k.val := congrFun (k0_off1_eq k) 0
  have e1 : k0_off1 k 1 = 0 := congrFun (k0_off1_eq k) 1
  match a with
  | ⟨0, _⟩ => show k0_off1 k 0 + 1 * r.val = 2000 * k.val + r.val; omega
  | ⟨1, _⟩ => show k0_off1 k 1 + 1 * d.val = d.val; omega

variable (c : Dev nD) (i : grid0.Coords) (arg1 : Memref sig .tc .vmem S2048 .i32) (harg1 : arg1.IsWhole)
  (arg2 : Memref sig .tc .vmem S2048 .f32) (harg2 : arg2.IsWhole) (arg3 : Memref sig .tc .vmem S100000x32 .bf16) (harg3 : arg3.IsWhole)
  (arg4 : Memref sig .tc .vmem S2048x32 .f32) (harg4 : arg4.IsWhole) (arg5 : Memref sig .tc .vmem S2048x32 .f32) (harg5 : arg5.IsWhole)
  (x0 : Vec Ideal S2048 .i32) (x2 : Vec Ideal S100000x32 .bf16)

/-- After the trips before `n`, entry `(e, d)` of the accumulator is the sum of the terms of the node numbers below
    `2000·n`: by induction on the trips, each adding the terms of its own 2000 node numbers. -/
theorem accAt_ideal (e : Fin 2048) (d : Fin 32) : ∀ n : ℕ, n ≤ 50 →
    accAt (F := Ideal) c i arg1 harg1 arg2 harg2 arg3 harg3 arg4 harg4 arg5 harg5 x0 (harg3.unread x2)
        (arg5.view.writes (Elt Ideal) arg5.view.junk [⟨Rect.unit ![0, 0] S2048x32.size inb_S2048x32_S2048x32_0_0, k0_pay1 (F := Ideal)⟩]) n (ix2 e d)
      = ∑ m ∈ Finset.range (2000 * n), nodeTerm (x0 (ix1 e)) x2 d m
  | 0, _ => by
    rw [accAt_zero, readAt_whole_writes_whole]
    unfold k0_pay1
    rw [shapeCast_self]
    show Ideal.ofBits .f32 0x00000000#32 = _
    rw [Ideal.ofBits_zero_f32]
    simp
  | n + 1, hn => by
    have ih := accAt_ideal e d n (by omega)
    have hk : n < k0_t1_loop.trips := by rw [trips_eq]; omega
    refine (congrFun (accAt_succ c i arg1 harg1 arg2 harg2 arg3 harg3 arg4 harg4 arg5 harg5 x0 (harg3.unread x2) _ ⟨n, hk⟩) (ix2 e d)).trans ?_
    rw [pay2_apply]
    show accAt (F := Ideal) c i arg1 harg1 arg2 harg2 arg3 harg3 arg4 harg4 arg5 harg5 x0 (harg3.unread x2) _ n (ix2 e d) + _ = _
    rw [ih, Nat.mul_succ, Finset.sum_range_add, Finset.sum_range (fun m => nodeTerm (x0 (ix1 e)) x2 d (2000 * n + m))]
    refine congrArg (_ + ·) (Finset.sum_congr rfl fun r _ => ?_)
    have hr : 2000 * n + r.val < 100000 := by have := r.isLt; omega
    unfold nodeTerm
    rw [dif_pos hr]
    exact congrArg (_ * ·) (rows_read arg3 harg3 x2 ⟨n, hk⟩ r d hr)

/-- So after all 50 trips it is the one-hot contraction over all 100000 nodes. -/
theorem accAt_all (e : Fin 2048) (d : Fin 32) :
    accAt (F := Ideal) c i arg1 harg1 arg2 harg2 arg3 harg3 arg4 harg4 arg5 harg5 x0 (harg3.unread x2)
        (arg5.view.writes (Elt Ideal) arg5.view.junk [⟨Rect.unit ![0, 0] S2048x32.size inb_S2048x32_S2048x32_0_0, k0_pay1 (F := Ideal)⟩])
        k0_t1_loop.trips (ix2 e d)
      = ∑ n : Fin 100000, Cert.Spmm.hot (x0 (ix1 e)) n.val * x2 (ix2 n d) := by
  rw [trips_eq, accAt_ideal c i arg1 harg1 arg2 harg2 arg3 harg3 arg4 harg4 arg5 harg5 x0 x2 e d 50 (le_refl _)]
  show ∑ m ∈ Finset.range 100000, nodeTerm (x0 (ix1 e)) x2 d m = _
  rw [Finset.sum_range]
  refine Finset.sum_congr rfl fun n _ => ?_
  unfold nodeTerm
  rw [dif_pos n.isLt]

/-- The stored block at an entry: the contraction times the weight of the entry's row. -/
theorem pay3_apply (v8 : Vec Ideal S2048 .f32) (v11 : Vec Ideal S2048x32 .f32) (e : Fin 2048) (d : Fin 32) :
    k0_pay3 (F := Ideal) v8 v11 (ix2 e d) = v11 (ix2 e d) * v8 (ix1 e) := by
  unfold k0_pay3
  rw [shapeCast_self]
  refine (mulf_apply _ _ _).trans ?_
  refine congrArg (v11 (ix2 e d) * ·) ?_
  refine (broadcastTo_apply _ _ (ix2 e d) (ix2 e (0 : Fin 1)) ?_).trans ?_
  · intro a
    match a with
    | ⟨0, _⟩ => rfl
    | ⟨1, _⟩ => rfl
  · refine (shapeCast_apply v8 shapeCasts_S2048_S2048x1 (ix2 e (0 : Fin 1)) (ix1 e) ?_)
    rw [Shape.rowMajor_val_one, Shape.rowMajor_val_two]
    simp

/-- The body's output block at an entry, over the blocks it is handed. -/
theorem out_apply (x1 : Vec Ideal S2048 .f32) (e : Fin 2048) (d : Fin 32) :
    out0_A_3 (F := Ideal) c i arg1 harg1 arg2 harg2 arg3 harg3 arg4 harg4 arg5 harg5 x0 x1 x2 (ix2 e d)
      = (∑ n : Fin 100000, Cert.Spmm.hot (x0 (ix1 e)) n.val * x2 (ix2 n d)) * x1 (ix1 e) := by
  rw [out_eq, pay3_apply, accAt_all]

end AtIdeal

/-! ## From the blocks to the array -/

section Blocks

/-- The index maps over the grid: the words', the weights' and the output's block index is the point's number, the
    features' block is the whole array. -/
theorem idx_facts : ∀ t : Fin cfg0.N, win0_0.index t (0 : Fin 1) = t.val ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at a point and the three input arrays, at their literal types. -/
abbrev wordsBlk (c : Dev nD) (t : Fin cfg0.N) : Vec Ideal S2048 .i32 := iblk0 V c 0 t
abbrev weightsBlk (c : Dev nD) (t : Fin cfg0.N) : Vec Ideal S2048 .f32 := iblk0 V c 1 t
abbrev featsBlk (c : Dev nD) (t : Fin cfg0.N) : Vec Ideal S100000x32 .bf16 := iblk0 V c 2 t
abbrev wordsArr (c : Dev nD) : Vec Ideal S1601536 .i32 := V c main_v5
abbrev weightsArr (c : Dev nD) : Vec Ideal S1601536 .f32 := V c main_v6
abbrev featsArr (c : Dev nD) : Vec Ideal S100000x32 .bf16 := V c main_v7

/-- Word `e` of the block of words at point `t` is word `2048·t + e` of the array. -/
theorem words_read (c : Dev nD) (t : Fin cfg0.N) (e : Fin 2048) (r : Fin 1601536) (hr : r.val = 2048 * t.val + e.val) :
    wordsBlk V c t (ix1 e) = wordsArr V c (ix1 r) := by
  unfold wordsBlk wordsArr iblk0
  rw [View.read_apply]
  show (V c main_v5 : Vec Ideal S1601536 .i32) _ = _
  refine congrArg (V c main_v5 : Vec Ideal S1601536 .i32) (funext fun a => Fin.ext ?_)
  match a with
  | ⟨0, _⟩ =>
    show win0_0.index t 0 * 2048 + 1 * e.val = r.val
    rw [(idx_facts t).1, hr]; omega

/-- Weight `e` of the block of weights at point `t` is weight `2048·t + e` of the array. -/
theorem weights_read (c : Dev nD) (t : Fin cfg0.N) (e : Fin 2048) (r : Fin 1601536) (hr : r.val = 2048 * t.val + e.val) :
    weightsBlk V c t (ix1 e) = weightsArr V c (ix1 r) := by
  unfold weightsBlk weightsArr iblk0
  rw [View.read_apply]
  show (V c main_v6 : Vec Ideal S1601536 .f32) _ = _
  refine congrArg (V c main_v6 : Vec Ideal S1601536 .f32) (funext fun a => Fin.ext ?_)
  match a with
  | ⟨0, _⟩ =>
    show win0_1.index t 0 * 2048 + 1 * e.val = r.val
    rw [(idx_facts t).2.1, hr]; omega

/-- The block of features at any point is the whole array. -/
theorem feats_read (c : Dev nD) (t : Fin cfg0.N) (n : Fin 100000) (d d' : Fin 32) (hd : d'.val = d.val) :
    featsBlk V c t (ix2 n d) = featsArr V c (ix2 n d') := by
  unfold featsBlk featsArr iblk0
  rw [View.read_apply]
  show (V c main_v7 : Vec Ideal S100000x32 .bf16) _ = _
  refine congrArg (V c main_v7 : Vec Ideal S100000x32 .bf16) (funext fun a => Fin.ext ?_)
  match a with
  | ⟨0, _⟩ =>
    show win0_2.index t 0 * 100000 + 1 * n.val = n.val
    rw [(idx_facts t).2.2.1]; omega
  | ⟨1, _⟩ =>
    show win0_2.index t 1 * 32 + 1 * d.val = d'.val
    rw [(idx_facts t).2.2.2.1, hd]; omega

/-- What point `t` writes back is block `t` of the whole array of messages. -/
theorem flushed_eq (c : Dev nD) (t : Fin cfg0.N) :
    (dat0 (F := Ideal) V c).flushed 3 t
      = ((cfg0.win 3).blk t).view.read (Elt Ideal) (Cert.Spmm.gatherScale (V c main_v5) (V c main_v6) (V c main_v7)) := by
  show (cfg0.win 3).cut (grid0.coords t) ((dat0 V c).after 3 t) = _
  rw [after0_3]
  unfold outsAt0
  funext j
  have hj0 : (j 0).val < 2048 := (j 0).isLt
  have hj1 : (j 1).val < 32 := (j 1).isLt
  have hx : ((cfg0.win 3).xinj (grid0.coords t) j : S2048x32.Idx) = ix2 (⟨(j 0).val, hj0⟩ : Fin 2048) (⟨(j 1).val, hj1⟩ : Fin 32) :=
    funext fun a => match a with | ⟨0, _⟩ => rfl | ⟨1, _⟩ => rfl
  show out0_A_3 (F := Ideal) c (grid0.coords t) (ms0_0 t) (hs0_0 t) (ms0_1 t) (hs0_1 t) (ms0_2 t) (hs0_2 t) (ms0_3 t) (hs0_3 t)
      scM0_0 (Memref.isWhole_whole _) (wordsBlk V c t) (weightsBlk V c t) (featsBlk V c t) ((cfg0.win 3).xinj (grid0.coords t) j)
    = Cert.Spmm.gatherScale (wordsArr V c) (weightsArr V c) (featsArr V c) (((cfg0.win 3).blk t).view.emb j)
  rw [hx]
  refine (out_apply c (grid0.coords t) (ms0_0 t) (hs0_0 t) (ms0_1 t) (hs0_1 t) (ms0_2 t) (hs0_2 t) (ms0_3 t) (hs0_3 t)
    scM0_0 (Memref.isWhole_whole _) (wordsBlk V c t) (featsBlk V c t) (weightsBlk V c t) ⟨(j 0).val, hj0⟩ ⟨(j 1).val, hj1⟩).trans ?_
  unfold Cert.Spmm.gatherScale
  have hN : cfg0.N = 782 := N_0
  have ht := t.isLt
  have hr : ((((cfg0.win 3).blk t).view.emb j) 0).val = 2048 * t.val + (j 0).val := by
    show win0_3.index t 0 * 2048 + 1 * (j 0).val = _
    rw [(idx_facts t).2.2.2.2.1]; omega
  have hc : ((((cfg0.win 3).blk t).view.emb j) 1).val = (j 1).val := by
    show win0_3.index t 1 * 32 + 1 * (j 1).val = _
    rw [(idx_facts t).2.2.2.2.2]; omega
  have hw := words_read V c t ⟨(j 0).val, hj0⟩ ((((cfg0.win 3).blk t).view.emb j) 0) hr
  have ha := weights_read V c t ⟨(j 0).val, hj0⟩ ((((cfg0.win 3).blk t).view.emb j) 0) hr
  have hf : ∀ n : Fin 100000, featsBlk V c t (ix2 n ⟨(j 1).val, hj1⟩) = featsArr V c (ix2 n ((((cfg0.win 3).blk t).view.emb j) 1)) :=
    fun n => feats_read V c t n ⟨(j 1).val, hj1⟩ ((((cfg0.win 3).blk t).view.emb j) 1) hc
  rw [hw, ha]
  exact congrArg (fun s : EReal => s * weightsArr V c (ix1 ((((cfg0.win 3).blk t).view.emb j) 0)))
    (Finset.sum_congr rfl fun n _ => congrArg (fun z : EReal => Cert.Spmm.hot (wordsArr V c (ix1 ((((cfg0.win 3).blk t).view.emb j) 0))) n.val * z) (hf n))

/-- Every row of the message array lies in the block of the point `row / 2048`. -/
theorem covered (c : Dev nD) (i : S1601536x32.Idx) :
    ∃ t : Fin cfg0.N, (cfg0.win 3).flush t = true ∧ i ∈ ((cfg0.win 3).blk t).view.set := by
  have hN : cfg0.N = 782 := N_0
  have hi0 : (i 0).val < 1601536 := (i 0).isLt
  have hi1 : (i 1).val < 32 := (i 1).isLt
  have htlt : (i 0).val / 2048 < cfg0.N := by rw [hN]; omega
  refine ⟨⟨(i 0).val / 2048, htlt⟩, flush0_3 _, ?_⟩
  show i ∈ ((View.whole main_v8).slice (win0_3.rect ⟨(i 0).val / 2048, htlt⟩)).set
  rw [View.set_slice_whole, Rect.mem_set_unit]
  intro a
  match a with
  | ⟨0, _⟩ =>
    show win0_3.index ⟨(i 0).val / 2048, htlt⟩ 0 * 2048 ≤ (i 0).val ∧ (i 0).val < win0_3.index ⟨(i 0).val / 2048, htlt⟩ 0 * 2048 + 2048
    rw [(idx_facts _).2.2.2.2.1]; dsimp only; omega
  | ⟨1, _⟩ =>
    show win0_3.index ⟨(i 0).val / 2048, htlt⟩ 1 * 32 ≤ (i 1).val ∧ (i 1).val < win0_3.index ⟨(i 0).val / 2048, htlt⟩ 1 * 32 + 32
    rw [(idx_facts _).2.2.2.2.2]; omega

end Blocks

/-- After the first region the message array holds `gatherScale` of the region's three input arrays as it found them. -/
theorem gather_region (c : Dev nD) :
    (dat0 (F := Ideal) V c).arrAt 3 cfg0.N = Cert.Spmm.gatherScale (V c main_v5) (V c main_v6) (V c main_v7) :=
  (dat0 (F := Ideal) V c).arrAt_eq_of_cover 3 _ (fun t _ => flushed_eq V c t) (covered c)

end Cert.Spmm.Gather

end
-- ==== Proof.ScatterRegion.lean ====
/-
  The second region, read as a value. Its one output block is the whole 100000×32 result, kept in place from one grid
  point to the next and written back after the last. Point 0 clears it. Every point `t` holds the `t`-th block of 2048
  source words and of 2048 message rows, and in 50 trips adds to rows `2000·k … 2000·k + 1999` of the result the
  contraction of the one-hot comparison of those node numbers against the source words with the message rows. So
  after point `t` row `n` is the one-hot contraction of the source words against the messages over the first
  `2048·(t+1)` entries of the padded list, and after the last point over all of them.

  The order below: one entry of the one-hot matrix; the product of the one-hot matrix with the message rows read at an
  entry; one trip's stored block at an entry; the 50 trips together as one function of what the buffer held (rows below
  `2000·k` updated after `k` trips, the others untouched: a trip reads only its own rows, which no earlier trip wrote);
  the two kinds of point (the first clears, the others add); the sum over the points; the sum over the blocks as the sum
  over the padded list (`1601536 = 782 · 2048`); the one write-back, whose block is the whole array.
-/
import proofs.«423643_j76055280877648_2_alg».proof.Proof.Gen.KernelIdeal.Frame
import proofs.«423643_j76055280877648_2_alg».proof.Proof.Spec
import Idealize.ShloMosaic.Lib.Pipeline.Value
import Idealize.ShloMosaic.Lib.ValueIdx
import Idealize.ShloMosaic.Lib.WritesUnit
import Idealize.ShloMosaic.PureOps.Ideal.Laws
import Mathlib.Logic.Equiv.Fin.Basic
import Mathlib.Algebra.BigOperators.Fin
import Mathlib.Data.Fintype.BigOperators

set_option maxRecDepth 16384

noncomputable section

open scoped BigOperators

namespace Cert.Spmm.Scatter

open Idealize.ShloMosaic Idealize.ShloMosaic.TcCoe Idealize.ShloMosaic.ValueIdx Idealize.SL.Sem
open Cert.KernelIdeal Cert.KernelIdeal.Gen

/-! ## The loop's arithmetic -/

/-- The loop makes 50 trips. -/
theorem trips_eq : k1_t1_loop.trips = 50 := by decide +kernel

/-- Trip k's block starts at row 2000·k, column 0. -/
theorem off1_eq : ∀ k : Fin k1_t1_loop.trips, k1_off1 k = ![2000 * k.val, 0] := by decide +kernel

/-- The one-hot entry: the comparison of a word with node number 2000k + r, widened and converted, is one where they are equal and zero elsewhere. -/
theorem onehot_entry (a : BitVec 32) (k : ℕ) (r : ℕ) :
    FloatOps.sitofp (F := Ideal) .f32
      ((IntOp.cmpi .eq a (IntOp.addi (Scalar.muli (Scalar.addi 0#32 (Scalar.muli (Scf.iv 0#32 1#32 k) 1#32)) 2000#32) (BitVec.ofNat 32 r))).setWidth 32)
      = Cert.Spmm.hot a (2000 * k + r) := by
  have hw : IntOp.addi (Scalar.muli (Scalar.addi 0#32 (Scalar.muli (Scf.iv 0#32 1#32 k) 1#32)) 2000#32) (BitVec.ofNat 32 r)
      = BitVec.ofNat 32 (2000 * k + r) := by
    unfold IntOp.addi Scalar.muli Scalar.addi IntOp.muli IntOp.addi Scf.iv
    rw [BitVec.ofNat_add, Nat.mul_comm, BitVec.ofNat_mul]
    simp
  rw [hw]
  unfold Cert.Spmm.hot IntOp.cmpi
  show (((((BitVec.ofBool (a == BitVec.ofNat 32 (2000 * k + r))).setWidth 32).toInt : ℝ)) : EReal) = _
  by_cases h : a = BitVec.ofNat 32 (2000 * k + r)
  · rw [if_pos h, h]; simp
  · rw [if_neg h]
    have : (a == BitVec.ofNat 32 (2000 * k + r)) = false := by simpa using h
    rw [this]; simp

/-- The contraction record of the one-hot product: axis 1 of the 2000×2048 one-hot against axis 0 of the 2048×32 messages. -/
abbrev D1 : DotDims S2000x2048 S2048x32 S2000x32 := dot_S2000x2048_S2048x32_S2000x32_1_0_0_1_n_n

/-- The operand indices of the product at result entry j and contraction position q: the one-hot is read at (row of j, q), the messages at
    (q, column of j). One statement per axis. -/
theorem lhs_D1_0 (j : S2000x32.Idx) (q : D1.contr.Idx) : (D1.lhsIdx j q 0).val = (j 0).val := by
  unfold DotDims.lhsIdx
  rw [dif_neg (show ¬(0 : Fin S2000x2048.rank) ∈ D1.lhsBatch by decide),
    dif_pos (show (0 : Fin S2000x2048.rank) ∈ D1.lhsNonContracting by decide)]
  rfl

theorem lhs_D1_1 (j : S2000x32.Idx) (q : D1.contr.Idx) : (D1.lhsIdx j q 1).val = (q ⟨0, by decide⟩).val :=
  DotDims.lhsIdx_val_of_single D1 (cl := 1) rfl j q

theorem rhs_D1_0 (j : S2000x32.Idx) (q : D1.contr.Idx) : (D1.rhsIdx j q 0).val = (q ⟨0, by decide⟩).val :=
  DotDims.rhsIdx_val_of_single D1 (cr := 0) rfl j q

theorem rhs_D1_1 (j : S2000x32.Idx) (q : D1.contr.Idx) : (D1.rhsIdx j q 1).val = (j 1).val := by
  unfold DotDims.rhsIdx
  rw [dif_neg (show ¬(1 : Fin S2048x32.rank) ∈ D1.rhsBatch by decide),
    dif_pos (show (1 : Fin S2048x32.rank) ∈ D1.rhsNonContracting by decide)]
  rfl

/-- The product read at (r, d): the sum over the 2048 contraction positions. -/
theorem matmul_D1_apply (lhs : FVec Ideal S2000x2048 .bf16) (rhs : FVec Ideal S2048x32 .bf16) (r : Fin 2000) (d : Fin 32) :
    FloatOps.matmul D1 none lhs rhs (constant S2000x32 .f32 0x00000000#32) (ix2 r d)
      = ∑ e : Fin 2048, lhs (ix2 r e) * rhs (ix2 e d) := by
  rw [Ideal.matmul_constant_zero_apply]
  rw [← Equiv.sum_comp (contrEquiv1 D1 2048 rfl rfl).symm]
  refine Finset.sum_congr rfl fun e _ => ?_
  have hq := contrEquiv1_symm_val D1 2048 rfl rfl e
  congr 2
  · funext a
    refine Fin.ext ?_
    match a with
    | ⟨0, _⟩ => exact lhs_D1_0 _ _
    | ⟨1, _⟩ => exact (lhs_D1_1 _ _).trans hq
  · funext a
    refine Fin.ext ?_
    match a with
    | ⟨0, _⟩ => exact (rhs_D1_0 _ _).trans hq
    | ⟨1, _⟩ => exact rhs_D1_1 _ _

/-- The source words laid along every row: entry (r, e) is word e. -/
theorem words_row (v3 : IVec S2048 32) (r : Fin 2000) (e : Fin 2048) :
    broadcastTo S2000x2048 (shapeCast S1x2048 (shapeCast S2048 v3 shapeCasts_S2048_S2048) shapeCasts_S2048_S1x2048)
      broadcasts_S1x2048_S2000x2048 (ix2 r e) = v3 (ix1 e) := by
  rw [shapeCast_self]
  refine (broadcastTo_apply _ _ (ix2 r e) (ix2 (0 : Fin 1) e) (fun a => by
    match a with
    | ⟨0, _⟩ => rfl
    | ⟨1, _⟩ => rfl)).trans ?_
  exact shapeCast_apply v3 _ (ix2 (0 : Fin 1) e) (ix1 e) (by
    rw [Shape.rowMajor_val_two, Shape.rowMajor_val_one]; show e.val = 0 * 2048 + e.val; omega)

/-- The node numbers laid along every column: entry (r, e) is the base word plus r. -/
theorem nodes_col (w : BitVec 32) (r : Fin 2000) (e : Fin 2048) :
    broadcastTo S2000x2048 (addi (broadcast S2000x1 w) (iota .tc S2000x1 32 [0] iota_S2000x1_d0_w32))
      broadcasts_S2000x1_S2000x2048 (ix2 r e) = IntOp.addi w (BitVec.ofNat 32 r.val) := by
  refine (broadcastTo_apply _ _ (ix2 r e) (ix2 r (0 : Fin 1)) (fun a => by
    match a with
    | ⟨0, _⟩ => rfl
    | ⟨1, _⟩ => rfl)).trans ?_
  show IntOp.addi w (iota .tc S2000x1 32 [0] iota_S2000x1_d0_w32 (ix2 r (0 : Fin 1))) = _
  rw [iota_single_apply]

/-- One trip's stored block at (r, d): what the rows held plus the one-hot contraction of the 2048 source words
    against column d of the 2048 message rows, at node number 2000k + r. -/
theorem pay2_apply (v3 : Vec Ideal S2048 .i32) (v6 : Vec Ideal S2048x32 .f32) (k : Fin k1_t1_loop.trips) (v25 : Vec Ideal S2000x32 .f32) (r : Fin 2000) (d : Fin 32) :
    k1_pay2 (F := Ideal) v3 v6 k v25 (ix2 r d)
      = v25 (ix2 r d) + ∑ e : Fin 2048, Cert.Spmm.hot (v3 (ix1 e)) (2000 * k.val + r.val) * v6 (ix2 e d) := by
  unfold k1_pay2
  dsimp only
  refine (addf_apply _ _ _).trans ?_
  rw [shapeCast_self v25]
  refine congrArg (v25 (ix2 r d) + ·) ?_
  refine (matmul_D1_apply _ _ r d).trans ?_
  refine Finset.sum_congr rfl fun e _ => ?_
  refine congrArg₂ (· * ·) ?_ ?_
  · show FloatOps.sitofp (F := Ideal) .f32 ((IntOp.cmpi .eq (broadcastTo S2000x2048 _ _ (ix2 r e)) (broadcastTo S2000x2048 _ _ (ix2 r e))).setWidth 32) = _
    rw [words_row, nodes_col]
    exact onehot_entry _ _ _
  · rw [shapeCast_self v6]
    rfl

/-! ## One trip, and the 50 trips as one function -/

/-- The rectangle of trip k: rows 2000k … 2000k + 1999, all 32 columns. -/
abbrev tripRect (k : Fin k1_t1_loop.trips) : Rect S100000x32 :=
  Rect.unit (s := S100000x32) (k1_off1 k) S2000x32.size (k1_off1_inb k)

/-- One trip writes ONE block: over rows 2000k … 2000k + 1999 the trip's payload of what those rows held. -/
theorem trip_piece (𝒱 : Variants) (c : Dev nD) (bd : Option 𝒱.V) (i : grid1.Coords) (arg1 : Memref sig .tc .vmem S2048 .i32) (harg1 : arg1.IsWhole) (arg2 : Memref sig .tc .vmem S2048x32 .f32) (harg2 : arg2.IsWhole) (arg3 : Memref sig .tc .vmem S100000x32 .f32) (harg3 : arg3.IsWhole) (v3 : Vec Ideal S2048 .i32) (v6 : Vec Ideal S2048x32 .f32) (k : Fin k1_t1_loop.trips) (f : BufTy.Contents (Elt Ideal) arg3.view.ty) :
    tripL_k1_t1 (F := Ideal) 𝒱 c bd i arg1 harg1 arg2 harg2 arg3 harg3 v3 v6 k f
      = [⟨tripRect k, k1_pay2 v3 v6 k (arg3.view.readAt (Elt Ideal) (tripRect k).toLoadRect f)⟩] := by
  unfold tripL_k1_t1
  unfold trip_k1_t1
  rfl

/-- What one block of 2048 entries adds at node n, column d: the one-hot contraction of its source words against column d of its message rows. -/
def contrib (v3 : Vec Ideal S2048 .i32) (v6 : Vec Ideal S2048x32 .f32) (nd : Fin 100000) (d : Fin 32) : EReal :=
  ∑ e : Fin 2048, Cert.Spmm.hot (v3 (ix1 e)) nd.val * v6 (ix2 e d)

/-- After the first n trips the rows below 2000n hold what they held at loop entry plus the block's contribution, the rows from 2000n on
    what they held at loop entry: a trip reads only its own rows, which no earlier trip wrote. -/
theorem loop_read (𝒱 : Variants) (c : Dev nD) (bd : Option 𝒱.V) (i : grid1.Coords) (arg1 : Memref sig .tc .vmem S2048 .i32) (harg1 : arg1.IsWhole) (arg2 : Memref sig .tc .vmem S2048x32 .f32) (harg2 : arg2.IsWhole) (arg3 : Memref sig .tc .vmem S100000x32 .f32) (harg3 : arg3.IsWhole) (v3 : Vec Ideal S2048 .i32) (v6 : Vec Ideal S2048x32 .f32)
    (G : BufTy.Contents (Elt Ideal) arg3.view.ty) : ∀ (n : ℕ) (hn : n ≤ 50) (nd : Fin 100000) (d : Fin 32),
    arg3.view.read (Elt Ideal) (arg3.view.writes (Elt Ideal) G (pb_k1_t1 (F := Ideal) 𝒱 c bd i arg1 harg1 arg2 harg2 arg3 harg3 v3 v6 G n)) (ix2 nd d)
      = if nd.val < 2000 * n then arg3.view.read (Elt Ideal) G (ix2 nd d) + contrib v3 v6 nd d
        else arg3.view.read (Elt Ideal) G (ix2 nd d)
  | 0, _, nd, d => by
    rw [if_neg (by omega)]
    rfl
  | n + 1, hn, nd, d => by
    have hk : n < k1_t1_loop.trips := by rw [trips_eq]; omega
    have hs := pb_k1_t1_succ (F := Ideal) 𝒱 c bd i arg1 harg1 arg2 harg2 arg3 harg3 v3 v6 G ⟨n, hk⟩
    rw [show pb_k1_t1 (F := Ideal) 𝒱 c bd i arg1 harg1 arg2 harg2 arg3 harg3 v3 v6 G (n + 1) = _ from hs, trip_piece, List.singleton_append]
    have ih := loop_read 𝒱 c bd i arg1 harg1 arg2 harg2 arg3 harg3 v3 v6 G n (by omega) nd d
    by_cases hin : 2000 * n ≤ nd.val ∧ nd.val < 2000 * n + 2000
    · have hx : nd.val - 2000 * n < 2000 := by omega
      refine (View.read_writes_cons_rows_of_mem arg3.view G (k1_off1_inb ⟨n, hk⟩) _ _ (ix2 nd d)
        (ix2 (⟨nd.val - 2000 * n, hx⟩ : Fin 2000) d) (off1_eq ⟨n, hk⟩)
        (by show nd.val = 2000 * n + (nd.val - 2000 * n); omega) rfl).trans ?_
      rw [pay2_apply, View.readAt_apply]
      rw [if_pos (by omega)]
      have hidx : (tripRect ⟨n, hk⟩).toLoadRect.idx (ix2 (⟨nd.val - 2000 * n, hx⟩ : Fin 2000) d) = ix2 nd d := by
        funext a
        refine Fin.ext ?_
        match a with
        | ⟨0, _⟩ =>
          show k1_off1 ⟨n, hk⟩ 0 + 1 * (nd.val - 2000 * n) = nd.val
          rw [off1_eq ⟨n, hk⟩]
          show 2000 * n + 1 * (nd.val - 2000 * n) = nd.val
          omega
        | ⟨1, _⟩ =>
          show k1_off1 ⟨n, hk⟩ 1 + 1 * d.val = d.val
          rw [off1_eq ⟨n, hk⟩]
          show 0 + 1 * d.val = d.val
          omega
      rw [hidx, ih, if_neg (by omega)]
      unfold contrib
      have e : 2000 * n + (nd.val - 2000 * n) = nd.val := by omega
      show _ + ∑ e : Fin 2048, Cert.Spmm.hot (v3 (ix1 e)) (2000 * n + (nd.val - 2000 * n)) * v6 (ix2 e d) = _
      rw [e]
    · refine (View.read_writes_cons_rows_of_not_mem arg3.view G (k1_off1_inb ⟨n, hk⟩) _ _ (ix2 nd d)
        (off1_eq ⟨n, hk⟩) (W := 2000) rfl (by show nd.val < 2000 * n ∨ 2000 * n + 2000 ≤ nd.val; omega)).trans ?_
      rw [ih]
      by_cases h1 : nd.val < 2000 * n
      · rw [if_pos h1, if_pos (by omega)]
      · rw [if_neg h1, if_neg (by omega)]

/-! ## The two kinds of point -/

/-- Zero offsets, however spelt. -/
theorem hz1 : (![0] : Fin 1 → Nat) = fun _ => 0 := funext fun a => by fin_cases a; rfl
theorem hz2 : (![0, 0] : Fin 2 → Nat) = fun _ => 0 := funext fun a => by fin_cases a <;> rfl

/-- A point after the first: every entry gains the block's contribution over what the buffer held. -/
theorem out_B_apply (c : Dev nD) (i : grid1.Coords) (arg1 : Memref sig .tc .vmem S2048 .i32) (harg1 : arg1.IsWhole) (arg2 : Memref sig .tc .vmem S2048x32 .f32) (harg2 : arg2.IsWhole) (arg3 : Memref sig .tc .vmem S100000x32 .f32) (harg3 : arg3.IsWhole) (hc0 : ¬cond1_0 i)
    (x0 : Vec Ideal S2048 .i32) (x1 : Vec Ideal S2048x32 .f32) (xo2 : Vec Ideal S100000x32 .f32) (nd : Fin 100000) (d : Fin 32) :
    out1_B_2 (F := Ideal) c i arg1 harg1 arg2 harg2 arg3 harg3 hc0 x0 x1 xo2 (ix2 nd d) = xo2 (ix2 nd d) + contrib x0 x1 nd d := by
  unfold out1_B_2
  rw [View.read_writes_of_cover VO1_2 VO1_2.junk arg3.view (harg3.unread xo2) _ (cover1_B_2 c i arg1 harg1 arg2 harg2 arg3 harg3 hc0 x0 x1 xo2)]
  unfold kernelRun1_B
  dsimp only
  simp only [View.readAt_eq_ld, harg1.read_unread, harg2.read_unread, View.ld_unit_zero (S := S2048) hz1, View.ld_unit_zero (S := S2048x32) hz2]
  rw [show Scf.trips (0#32) (Scalar.addi 0#32 50#32) 1#32 = 50 from trips_eq,
    loop_read Variants.none c none i arg1 harg1 arg2 harg2 arg3 harg3 x0 x1 (harg3.unread xo2) 50 (le_refl _) nd d,
    if_pos (by have := nd.isLt; omega), harg3.read_unread]

/-- The first point: the buffer is cleared, then every entry gains the block's contribution. -/
theorem out_A_apply (c : Dev nD) (i : grid1.Coords) (arg1 : Memref sig .tc .vmem S2048 .i32) (harg1 : arg1.IsWhole) (arg2 : Memref sig .tc .vmem S2048x32 .f32) (harg2 : arg2.IsWhole) (arg3 : Memref sig .tc .vmem S100000x32 .f32) (harg3 : arg3.IsWhole) (hc0 : cond1_0 i)
    (x0 : Vec Ideal S2048 .i32) (x1 : Vec Ideal S2048x32 .f32) (nd : Fin 100000) (d : Fin 32) :
    out1_A_2 (F := Ideal) c i arg1 harg1 arg2 harg2 arg3 harg3 hc0 x0 x1 (ix2 nd d) = contrib x0 x1 nd d := by
  unfold out1_A_2
  rw [View.read_writes_of_cover VO1_2 VO1_2.junk arg3.view arg3.view.junk _ (cover1_A_2 c i arg1 harg1 arg2 harg2 arg3 harg3 hc0 x0 x1)]
  unfold kernelRun1_A
  dsimp only
  sl_unfold_words
  simp only [View.readAt_eq_ld, harg1.read_unread, harg2.read_unread, View.ld_unit_zero (S := S2048) hz1, View.ld_unit_zero (S := S2048x32) hz2]
  rw [View.writes_append, show Scf.trips (0#32) (Scalar.addi 0#32 50#32) 1#32 = 50 from trips_eq,
    loop_read Variants.none c none i arg1 harg1 arg2 harg2 arg3 harg3 x0 x1 _ 50 (le_refl _) nd d,
    if_pos (by have := nd.isLt; omega), View.read_writes_junk_eq_canon, View.canon_unit_zero hz2]
  unfold k1_pay1
  show Ideal.ofBits .f32 0x00000000#32 + _ = _
  rw [Ideal.ofBits_zero_f32, zero_add]

/-! ## The points, one after another -/

variable (V : (c : Dev nD) → (b : Ref sig .tc) → Buf (Elt Ideal) ((c : Thread nD τ).loc b))

/-- The source words of block t, and the message rows of block t, as the second region finds them. -/
abbrev wblk (c : Dev nD) (t : Fin cfg1.N) : Vec Ideal S2048 .i32 := iblk1 V c 0 t
abbrev mblk (c : Dev nD) (t : Fin cfg1.N) : Vec Ideal S2048x32 .f32 := iblk1 V c 1 t

/-- The block index of both input windows at point t is t (and 0 along the columns). -/
theorem idx_facts : ∀ t : Fin cfg1.N, win1_0.index t 0 = t.val ∧ win1_1.index t 0 = t.val ∧ win1_1.index t 1 = 0 :=
  (by decide +kernel : ∀ t : Fin grid1.N, win1_0.index t 0 = t.val ∧ win1_1.index t 0 = t.val ∧ win1_1.index t 1 = 0)

theorem blk_lt (t : Fin cfg1.N) (e : Fin 2048) : 2048 * t.val + e.val < 1601536 := by
  have hN : t.val < 782 := lt_of_lt_of_eq t.isLt (show cfg1.N = 782 from N_1)
  omega

/-- Word e of block t is word 2048·t + e of the padded list. -/
theorem wblk_apply (c : Dev nD) (t : Fin cfg1.N) (e : Fin 2048) :
    wblk V c t (ix1 e) = V c main_v4 (ix1 ⟨2048 * t.val + e.val, blk_lt t e⟩) := by
  unfold wblk iblk1
  rw [View.read_apply]
  show V c main_v4 _ = V c main_v4 _
  congr 1
  funext a
  apply Fin.ext
  match a with
  | ⟨0, _⟩ =>
    show win1_0.index t 0 * 2048 + 1 * e.val = 2048 * t.val + e.val
    rw [(idx_facts t).1]; omega

/-- Row e of block t is row 2048·t + e of the messages. -/
theorem mblk_apply (c : Dev nD) (t : Fin cfg1.N) (e : Fin 2048) (d : Fin 32) :
    mblk V c t (ix2 e d) = V c main_v8 (ix2 ⟨2048 * t.val + e.val, blk_lt t e⟩ d) := by
  unfold mblk iblk1
  rw [View.read_apply]
  show V c main_v8 _ = V c main_v8 _
  congr 1
  funext a
  apply Fin.ext
  match a with
  | ⟨0, _⟩ =>
    show win1_1.index t 0 * 2048 + 1 * e.val = 2048 * t.val + e.val
    rw [(idx_facts t).2.1]; omega
  | ⟨1, _⟩ =>
    show win1_1.index t 1 * 32 + 1 * d.val = d.val
    rw [(idx_facts t).2.2]; omega

/-- After point n the buffer holds, at (node, d), the contributions of blocks 0 … n: by induction over the points, the first clearing the
    buffer and every later one adding to what the one before left. -/
theorem outsAt_apply (c : Dev nD) : ∀ (n : ℕ) (hn : n < cfg1.N) (nd : Fin 100000) (d : Fin 32),
    outsAt1 V c n hn (ix2 nd d)
      = ∑ t : Fin (n + 1), contrib (wblk V c ⟨t.val, lt_of_le_of_lt (Nat.le_of_lt_succ t.isLt) hn⟩)
          (mblk V c ⟨t.val, lt_of_le_of_lt (Nat.le_of_lt_succ t.isLt) hn⟩) nd d
  | 0, hn, nd, d => by
    refine (congrFun (outsAt1_A V c ⟨0, hn⟩ rfl) (ix2 nd d)).trans ?_
    refine (out_A_apply c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr rfl) (wblk V c ⟨0, hn⟩) (mblk V c ⟨0, hn⟩) nd d).trans ?_
    rw [Fin.sum_univ_one]
    rfl
  | n + 1, hn, nd, d => by
    have hN : cfg1.N = 782 := N_1
    have hB : ¬(⟨n + 1, hn⟩ : Fin cfg1.N).val % 782 = 0 := by dsimp only; omega
    refine (congrFun (outsAt1_B V c ⟨n + 1, hn⟩ hB) (ix2 nd d)).trans ?_
    refine (out_B_apply c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => hB ((hcond1_0 ⟨n + 1, hn⟩).mp h)) (wblk V c ⟨n + 1, hn⟩) (mblk V c ⟨n + 1, hn⟩)
      (outsAt1 V c ((⟨n + 1, hn⟩ : Fin cfg1.N).val - 1) (Nat.lt_of_le_of_lt (Nat.sub_le _ _) (⟨n + 1, hn⟩ : Fin cfg1.N).isLt)) nd d).trans ?_
    rw [Fin.sum_univ_castSucc]
    refine congrArg₂ (· + ·) ?_ rfl
    exact outsAt_apply c n (Nat.lt_of_succ_lt hn) nd d

/-! ## All the blocks are the whole padded list -/

/-- A sum over a list of a·b entries is the sum over its a blocks of b entries. -/
theorem sum_blocks {M : Type*} [AddCommMonoid M] (a b N : ℕ) (h : a * b = N) (f : Fin N → M) :
    ∑ e : Fin N, f e = ∑ t : Fin a, ∑ e' : Fin b, f ⟨b * t.val + e'.val, by
      have h1 : b * t.val + e'.val < b * (t.val + 1) := by rw [Nat.mul_succ]; have := e'.isLt; omega
      have h2 : b * (t.val + 1) ≤ b * a := Nat.mul_le_mul_left b t.isLt
      rw [Nat.mul_comm b a, h] at h2; omega⟩ := by
  subst h
  rw [← Equiv.sum_comp finProdFinEquiv f, Fintype.sum_prod_type]
  refine Finset.sum_congr rfl fun t _ => Finset.sum_congr rfl fun e' _ => ?_
  congr 1
  apply Fin.ext
  show e'.val + b * t.val = b * t.val + e'.val
  omega

/-- After the last point the buffer holds the one-hot contraction over all 1601536 entries of the padded list. -/
theorem total_eq (c : Dev nD) (h781 : 781 < cfg1.N) (nd : Fin 100000) (d : Fin 32) :
    outsAt1 V c 781 h781 (ix2 nd d) = Cert.Spmm.scatterSum (V c main_v4) (V c main_v8) (ix2 nd d) := by
  rw [outsAt_apply]
  unfold Cert.Spmm.scatterSum
  show _ = ∑ e : Fin 1601536, Cert.Spmm.hot (V c main_v4 (ix1 e)) nd.val * V c main_v8 (ix2 e d)
  rw [sum_blocks 782 2048 1601536 (by norm_num)]
  refine Finset.sum_congr rfl fun t _ => ?_
  unfold contrib
  refine Finset.sum_congr rfl fun e _ => ?_
  rw [wblk_apply, mblk_apply]

/-! ## The one write-back -/

/-- The output window's block at every point is the whole array: block index zero, extents those of the array. -/
theorem out_facts : ∀ t : Fin cfg1.N, win1_2.index t 0 = 0 ∧ win1_2.index t 1 = 0
    ∧ win1_2.xsize (grid1.coords t) 0 = 100000 ∧ win1_2.xsize (grid1.coords t) 1 = 32 :=
  (by decide +kernel : ∀ t : Fin grid1.N, win1_2.index t 0 = 0 ∧ win1_2.index t 1 = 0
    ∧ win1_2.xsize (grid1.coords t) 0 = 100000 ∧ win1_2.xsize (grid1.coords t) 1 = 32)

/-- After the second region the result array holds `scatterSum` of the source words and the messages as the region found them. -/
theorem scatter_region (c : Dev nD) :
    (dat1 (F := Ideal) V c).arrAt 2 cfg1.N = Cert.Spmm.scatterSum (V c main_v4) (V c main_v8) := by
  have hN : grid1.N = 782 := N_1
  have hlast : 781 < cfg1.N := by show 781 < grid1.N; omega
  refine (dat1 V c).arrAt_eq_of_cover 2 (Cert.Spmm.scatterSum (V c main_v4) (V c main_v8)) (fun t hf => ?_) (fun i => ?_)
  · have h781 : t.val = 781 := by
      have h1 := (flush1_2 t).mp hf
      have h2 : t.val < grid1.N := t.isLt
      omega
    show (cfg1.win 2).cut (grid1.coords t) ((dat1 V c).after 2 t) = _
    rw [after1_2]
    have hi : ∀ a, win1_2.index t a = 0 := fun a => by
      match a with
      | ⟨0, _⟩ => exact (out_facts t).1
      | ⟨1, _⟩ => exact (out_facts t).2.1
    have hz' : (fun a => win1_2.index t a * main_v9.ty.shape.size a) = fun _ => 0 := funext fun a => by rw [hi a, Nat.zero_mul]
    refine Eq.trans ?_ (Memref.read_access_unit_zero (Elt Ideal) main_v9 hz' (fun a => by rw [congrFun hz' a, Nat.zero_add])
      (Cert.Spmm.scatterSum (V c main_v4) (V c main_v8))).symm
    obtain ⟨tv, ht⟩ := t
    dsimp only at h781
    subst h781
    funext y
    obtain ⟨nd, d, rfl⟩ : ∃ (nd : Fin 100000) (d : Fin 32), y = ix2 nd d := ⟨y 0, y 1, eq_ix2 y⟩
    exact total_eq V c ht nd d
  · refine ⟨⟨781, hlast⟩, (flush1_2 ⟨781, hlast⟩).mpr rfl, ?_⟩
    show i ∈ ((View.whole main_v9).slice (win1_2.rect ⟨781, hlast⟩)).set
    rw [View.set_slice_whole, Rect.mem_set_unit]
    intro a
    have h0 : (i 0 : Nat) < 100000 := (i 0).isLt
    have h1 : (i 1 : Nat) < 32 := (i 1).isLt
    have hf := out_facts ⟨781, hlast⟩
    match a with
    | ⟨0, _⟩ =>
      show win1_2.index ⟨781, hlast⟩ 0 * win1_2.size 0 ≤ (i 0 : Nat)
        ∧ (i 0 : Nat) < win1_2.index ⟨781, hlast⟩ 0 * win1_2.size 0 + win1_2.xsize (grid1.coords ⟨781, hlast⟩) 0
      rw [hf.1, hf.2.2.1, Nat.zero_mul]; omega
    | ⟨1, _⟩ =>
      show win1_2.index ⟨781, hlast⟩ 1 * win1_2.size 1 ≤ (i 1 : Nat)
        ∧ (i 1 : Nat) < win1_2.index ⟨781, hlast⟩ 1 * win1_2.size 1 + win1_2.xsize (grid1.coords ⟨781, hlast⟩) 1
      rw [hf.2.1, hf.2.2.2, Nat.zero_mul]; omega

end Cert.Spmm.Scatter
end
-- ==== Proof.KernelValue.lean ====
/-
  The kernel's result as one function of its arguments. The program is host operations, then the gather-and-scale region,
  then the scatter-add region. The second region's result is `scatterSum` of the source words and the messages it finds;
  the source words it finds are the padded row 0 of the edge list, which the first region does not touch; the messages
  it finds are what the first region left, `gatherScale` of the padded row 1, the padded weights and the features.
-/
import proofs.«423643_j76055280877648_2_alg».proof.Proof.Gen.KernelIdeal.Frame
import proofs.«423643_j76055280877648_2_alg».proof.Proof.Spec
import proofs.«423643_j76055280877648_2_alg».proof.Proof.HostGlue
import proofs.«423643_j76055280877648_2_alg».proof.Proof.GatherRegion
import proofs.«423643_j76055280877648_2_alg».proof.Proof.ScatterRegion

set_option maxRecDepth 16384

noncomputable section

namespace Cert.Spmm.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- What the program leaves in its result buffer: the dense one-hot spelling of the sparse product over the padded
    edge list, of the three argument arrays as launched. The second region's array is read through the fold of the host
    stretches and the first region: its source words are the padded row 0 of the edge list (no region writes them), its
    messages what the first region left, and that is `gatherScale` of the padded row 1, the padded weights and the features. -/
theorem out_value (c : Dev nD) :
    W9 (F := Ideal) m ρ c (Proc.devRef .tc main_v9)
      = Cert.Spmm.scatterSum (Cert.Spmm.srcPad (m ((c : Thread nD τ).loc main_arg0)))
          (Cert.Spmm.gatherScale (Cert.Spmm.dstPad (m ((c : Thread nD τ).loc main_arg0)))
            (Cert.Spmm.attrPad (m ((c : Thread nD τ).loc main_arg1))) (m ((c : Thread nD τ).loc main_arg2))) := by
  have h9 : W9 (F := Ideal) m ρ c (Proc.devRef .tc main_v9) = (dat1 (V8 m ρ) c).arrAt 2 cfg1.N := W9_arr m ρ c 2
  have h4 : V8 (F := Ideal) m ρ c main_v4 = Cert.Spmm.srcPad (m ((c : Thread nD τ).loc main_arg0)) :=
    (W8_of_ne m ρ c main_v4 (by decide)).trans (Cert.Spmm.Host.src_words m ρ c)
  have h8 : V8 (F := Ideal) m ρ c main_v8
      = Cert.Spmm.gatherScale (Cert.Spmm.dstPad (m ((c : Thread nD τ).loc main_arg0)))
          (Cert.Spmm.attrPad (m ((c : Thread nD τ).loc main_arg1))) (m ((c : Thread nD τ).loc main_arg2)) := by
    refine (W8_arr m ρ c 3).trans ((Cert.Spmm.Gather.gather_region (V7 m ρ) c).trans ?_)
    rw [show V7 (F := Ideal) m ρ c main_v5 = _ from Cert.Spmm.Host.dst_words m ρ c,
      show V7 (F := Ideal) m ρ c main_v6 = _ from Cert.Spmm.Host.weights m ρ c,
      show V7 (F := Ideal) m ρ c main_v7 = _ from Cert.Spmm.Host.feats m ρ c]
  rw [h9, Cert.Spmm.Scatter.scatter_region (V8 m ρ) c, h4, h8]

end Cert.Spmm.Kernel

end
-- ==== Proof.LibGatherRows.lean ====
/-
  A gather of whole ROWS of a table, read at an index.

  `x[idx]` of a table `x : [N, C]` at a column of row numbers `idx : [P, 1]` — what jnp's `table[rows]` lowers to — is a
  `stablehlo.gather` with the operand's first axis collapsed and start-indexed, the second an offset axis reading the whole
  row (slice sizes `[1, C]`), the index vector along the start indices' last axis (of extent one) and no batching axes.
  Result element `(p, c)` is the table at row `idx[p, 0]`, read as a SIGNED integer and clamped into `[0, N − 1]`
  (StableHLO clamps every start index so that the slice fits), and at column `c`.
-/
import Idealize.ShloMosaic.PureOps
import Idealize.ShloMosaic.Lib.ValueIdx

namespace GatherRows

open Idealize.ShloMosaic Idealize.ShloMosaic.ValueIdx

variable {α : Type}

/-- Those dimension numbers for a table `[N, C]`, start indices `[P, 1]` and a result `[P, C]`; their conditions `wf` are
    decided on a program's literal shapes. -/
abbrev rowDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE GATHER READ AT `(p, c)`: the table at row `idx[p, 0]`, read signed and clamped into `[0, N − 1]`, and at
    column `c`. -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (y : (⟨2, ![P, C]⟩ : Shape).Idx) :
    Host.gather (rowDims N C P wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ =>
    show (rowDims N C P wf).start y idx 0 + (rowDims N C P wf).batchCoord y 0 + (rowDims N C P wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C P wf).startIndexMap from List.mem_singleton.mpr rfl)]
    have hsi : (rowDims N C P wf).siIdx y ⟨List.idxOf (0 : Fin 2) (rowDims N C P wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N C P wf).start y idx 1 + (rowDims N C P wf).batchCoord y 1 + (rowDims N C P wf).offCoord y 1 = (y 1).val
    rw [GatherDims.batchCoord_eq_zero _ _ _ List.not_mem_nil]
    unfold GatherDims.start
    rw [dif_neg (show ¬ (1 : Fin 2) ∈ (rowDims N C P wf).startIndexMap from
      (show ¬ (1 : Fin 2) ∈ ([0] : List (Fin 2)) by decide))]
    unfold GatherDims.offCoord
    rw [dif_pos (show (1 : Fin 2) ∈ (rowDims N C P wf).sKept from
      (GatherDims.mem_sKept _ _).mpr ⟨(show ¬ (1 : Fin 2) ∈ ([0] : List (Fin 2)) by decide), List.not_mem_nil⟩)]
    simp only [Nat.zero_add, Nat.add_zero]
    rfl

end GatherRows
-- ==== Proof.LibScatterRows.lean ====
/-
  A scatter of whole ROWS into a table, read at an index.

  Adding the rows of `upd : [P, C]` into a table `x : [N, C]` at a column of row numbers `idx : [P, 1]` — what jnp's
  `table.at[rows].add(upd)` lowers to — is a `stablehlo.scatter` whose update window is the updates' second axis, whose
  inserted (and scattered) operand axis is the table's first, with the index vector along the scatter indices' last axis (of
  extent one). Update element `(p, c)` lands at row `idx[p, 0]`, read as a SIGNED integer and NOT clamped, and at column `c`;
  when that row is outside `[0, N)` the update lands nowhere.
-/
import Idealize.ShloMosaic.PureOps
import Idealize.ShloMosaic.Lib.ValueIdx

noncomputable section

namespace ScatterRows

open Idealize.ShloMosaic Idealize.ShloMosaic.ValueIdx

/-- Those dimension numbers for a table `[N, C]`, scatter indices `[P, 1]` and updates `[P, C]`; their conditions `wf` are
    decided on a program's literal shapes. -/
abbrev rowDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

variable {N C P w : Nat} (wf : ScatterDims.WF ⟨2, ![N, C]⟩ ⟨2, ![P, 1]⟩ ⟨2, ![P, C]⟩ [1] [0] [0] 1)

/-- On the table's row axis the window starts at the row number `idx[p, 0]`, read signed. -/
theorem start_zero (j : (⟨2, ![P, C]⟩ : Shape).Idx) (idx : IVec ⟨2, ![P, 1]⟩ w) :
    (rowDims N C P wf).start j idx 0 = (idx (ix2 (j 0) (0 : Fin 1))).toInt := by
  unfold ScatterDims.start
  rw [dif_pos (show (0 : Fin 2) ∈ (rowDims N C P wf).scatterDimsToOperandDims from List.mem_singleton.mpr rfl)]
  have hsi : (rowDims N C P wf).siIdx j ⟨List.idxOf (0 : Fin 2) (rowDims N C P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the window starts at zero: no scatter index names that axis. -/
theorem start_one (j : (⟨2, ![P, C]⟩ : Shape).Idx) (idx : IVec ⟨2, ![P, 1]⟩ w) :
    (rowDims N C P wf).start j idx 1 = 0 := by
  unfold ScatterDims.start
  rw [dif_neg (show ¬ (1 : Fin 2) ∈ (rowDims N C P wf).scatterDimsToOperandDims from
    (show ¬ (1 : Fin 2) ∈ ([0] : List (Fin 2)) by decide))]

/-- The row axis is inserted: the window has no extent along it. -/
theorem window_zero (j : (⟨2, ![P, C]⟩ : Shape).Idx) : (rowDims N C P wf).window j 0 = 0 := by
  unfold ScatterDims.window
  rw [dif_neg (show ¬ (0 : Fin 2) ∈ (rowDims N C P wf).sKept from
    (show ¬ (0 : Fin 2) ∈ ([1] : List (Fin 2)) by decide))]

/-- The column axis carries the update's own column. -/
theorem window_one (j : (⟨2, ![P, C]⟩ : Shape).Idx) : (rowDims N C P wf).window j 1 = (j 1).val := by
  unfold ScatterDims.window
  rw [dif_pos (show (1 : Fin 2) ∈ (rowDims N C P wf).sKept from
    (show (1 : Fin 2) ∈ ([1] : List (Fin 2)) by decide))]
  rfl

/-- WHERE AN UPDATE LANDS: update element `j = (p, c)` lands on table element `i = (n, d)` exactly when the row number
    `idx[p, 0]`, read signed, is `n` and the columns agree. -/
theorem resultIdx?_eq_some_iff (idx : IVec ⟨2, ![P, 1]⟩ w) (j : (⟨2, ![P, C]⟩ : Shape).Idx)
    (i : (⟨2, ![N, C]⟩ : Shape).Idx) :
    (rowDims N C P wf).resultIdx? j idx = some i
      ↔ (idx (ix2 (j 0) (0 : Fin 1))).toInt = ((i 0).val : Int) ∧ (j 1).val = (i 1).val := by
  have h0 := start_zero wf j idx
  have h1 := start_one wf j idx
  have w0 := window_zero wf j
  have w1 := window_one wf j
  have hi0 : (i 0).val < N := (i 0).isLt
  have hi1 : (i 1).val < C := (i 1).isLt
  have hj1 : (j 1).val < C := (j 1).isLt
  unfold ScatterDims.resultIdx?
  constructor
  · intro h
    split at h
    · rename_i hall
      have hf := Option.some.inj h
      have e0 := congrArg (fun f : (⟨2, ![N, C]⟩ : Shape).Idx => (f 0).val) hf
      have e1 := congrArg (fun f : (⟨2, ![N, C]⟩ : Shape).Idx => (f 1).val) hf
      have a0 := (hall 0).1
      dsimp only at e0 e1
      rw [h0, w0] at e0 a0
      rw [h1, w1] at e1
      constructor <;> omega
    · exact absurd h (by simp)
  · rintro ⟨ha, hb⟩
    have hall : ∀ a : Fin 2, 0 ≤ (rowDims N C P wf).start j idx a + ((rowDims N C P wf).window j a : Int) ∧
        (rowDims N C P wf).start j idx a + ((rowDims N C P wf).window j a : Int)
          < (((⟨2, ![N, C]⟩ : Shape).size a : Nat) : Int) := by
      refine Fin.forall_fin_two.2 ⟨?_, ?_⟩
      · rw [h0, w0, ha]
        show (0 : Int) ≤ ((i 0).val : Int) + ((0 : Nat) : Int) ∧ ((i 0).val : Int) + ((0 : Nat) : Int) < (N : Int)
        omega
      · rw [h1, w1]
        show (0 : Int) ≤ 0 + ((j 1).val : Int) ∧ 0 + ((j 1).val : Int) < (C : Int)
        omega
    rw [dif_pos hall]
    refine congrArg some (funext (Fin.forall_fin_two.2 ⟨Fin.ext ?_, Fin.ext ?_⟩))
    · show ((rowDims N C P wf).start j idx 0 + ((rowDims N C P wf).window j 0 : Int)).toNat = (i 0).val
      rw [h0, w0, ha]; omega
    · show ((rowDims N C P wf).start j idx 1 + ((rowDims N C P wf).window j 1 : Int)).toNat = (i 1).val
      rw [h1, w1]; omega

open scoped BigOperators

/-- THE SCATTER-ADD READ AT `(n, d)`, over the extended reals: the table's element plus the sum, over the updates' rows
    whose row number `idx[p, 0]` read signed is `n`, of the update's element in column `d`. The updates that land on
    `(n, d)` are in bijection with those rows: `(p, c) ↦ p`, back `p ↦ (p, d)`. -/
theorem hostScatterAdd_rows_apply (x : (⟨2, ![N, C]⟩ : Shape).Idx → EReal) (idx : IVec ⟨2, ![P, 1]⟩ w)
    (upd : (⟨2, ![P, C]⟩ : Shape).Idx → EReal) (i : (⟨2, ![N, C]⟩ : Shape).Idx) :
    Ideal.hostScatterAdd (rowDims N C P wf) x idx upd i
      = x i + ∑ p ∈ Finset.univ.filter (fun p : Fin P => (idx (ix2 p (0 : Fin 1))).toInt = ((i 0).val : Int)),
          upd (ix2 p (i 1)) := by
  unfold Ideal.hostScatterAdd
  congr 1
  refine Finset.sum_nbij' (fun j => (j 0 : Fin P)) (fun p => ix2 p (i 1)) ?_ ?_ ?_ ?_ ?_
  · intro j hj
    exact Finset.mem_filter.2 ⟨Finset.mem_univ _,
      ((resultIdx?_eq_some_iff wf idx j i).1 (Finset.mem_filter.1 hj).2).1⟩
  · intro p hp
    exact Finset.mem_filter.2 ⟨Finset.mem_univ _,
      (resultIdx?_eq_some_iff wf idx (ix2 p (i 1)) i).2 ⟨(Finset.mem_filter.1 hp).2, rfl⟩⟩
  · intro j hj
    have h1 : j 1 = i 1 := Fin.ext ((resultIdx?_eq_some_iff wf idx j i).1 (Finset.mem_filter.1 hj).2).2
    rw [← h1]
    exact (eq_ix2 j).symm
  · intro p _
    rfl
  · intro j hj
    have h1 : j 1 = i 1 := Fin.ext ((resultIdx?_eq_some_iff wf idx j i).1 (Finset.mem_filter.1 hj).2).2
    rw [← h1]
    exact congrArg upd (eq_ix2 j)

/-- The same for the host's accumulating scatter at the ideal values, whatever the float format. -/
theorem scatterAdd_rows_apply {φ : FTy} (x : FVec Ideal ⟨2, ![N, C]⟩ φ) (idx : IVec ⟨2, ![P, 1]⟩ w)
    (upd : FVec Ideal ⟨2, ![P, C]⟩ φ) (i : (⟨2, ![N, C]⟩ : Shape).Idx) :
    Host.scatterAdd (rowDims N C P wf) x idx upd i
      = x i + ∑ p ∈ Finset.univ.filter (fun p : Fin P => (idx (ix2 p (0 : Fin 1))).toInt = ((i 0).val : Int)),
          upd (ix2 p (i 1)) :=
  hostScatterAdd_rows_apply wf x idx upd i

end ScatterRows

end
-- ==== Proof.RefValue.lean ====
/-
  The reference, read as a value: the target words made non-negative by adding 100000 to the negative ones, one feature
  row gathered per edge at that word cut off to the row range, each row scaled by its edge's weight, and the scaled rows
  added into a zero array at the rows the source words name, a word that is no row number dropping its edge.
  When every target word is already a row number the adjustment and the cut do nothing, and the result at `(n, d)` is the
  sum, over the edges whose source word is `n`, of the weight times feature `d` of the target's row.
-/
import proofs.«423643_j76055280877648_2_alg».proof.Proof.Gen.ReferenceIdeal.Run
import proofs.«423643_j76055280877648_2_alg».proof.Proof.Gen.ReferenceIdeal.Read
import proofs.«423643_j76055280877648_2_alg».proof.Proof.Spec
import proofs.«423643_j76055280877648_2_alg».proof.Proof.LibGatherRows
import proofs.«423643_j76055280877648_2_alg».proof.Proof.LibScatterRows
import Idealize.ShloMosaic.Lib.ValueIdx
import Idealize.ShloMosaic.Lib.Pipeline.Value
import Idealize.ShloMosaic.PureOps.Ideal.Laws

noncomputable section

open scoped BigOperators

namespace Cert.Spmm.Ref

open Idealize.ShloMosaic Idealize.ShloMosaic.ValueIdx
open Cert.ReferenceIdeal Cert.ReferenceIdeal.Gen Cert.ReferenceIdeal.Read

/-! ## Words: a 32-bit word below 2^31 read signed is the word read as a natural number -/

/-- A word whose natural-number value is below 2^31 has that value when read as a signed integer. -/
theorem toInt_of_toNat_lt (v : BitVec 32) (h : v.toNat < 2147483648) : v.toInt = (v.toNat : Int) :=
  BitVec.toInt_eq_toNat_of_lt (by omega)

/-- For a row number `n` (below 100000, so below 2^31) a word read signed is `n` exactly when it is the word of `n`. -/
theorem toInt_eq_iff (v : BitVec 32) (n : Nat) (hn : n < 100000) :
    v.toInt = (n : Int) ↔ v = BitVec.ofNat 32 n := by
  constructor
  · intro h
    have hc := BitVec.toInt_eq_toNat_cond v
    have hlt : v.toNat < 4294967296 := v.isLt
    apply BitVec.eq_of_toNat_eq
    rw [BitVec.toNat_ofNat]
    split at hc <;> omega
  · intro h
    subst h
    rw [toInt_of_toNat_lt _ (by rw [BitVec.toNat_ofNat]; omega), BitVec.toNat_ofNat]
    omega

/-! ## The stages read at an index -/

/-- The scatter's row numbers are the source words: entry `(e, 0)` is row 0 of the edge list at `e`. -/
theorem src_apply (ei : Cert.Spmm.EdgeIdx) (e : Fin 1600000) :
    val_main_v15 (F := Ideal) ei (ix2 e (0 : Fin 1)) = ei (ix2 0 e) := by
  rw [val_main_v15_apply, val_main_v1_apply, val_main_v0_apply]
  congr 1
  funext b
  refine Fin.ext ?_
  match b with
  | ⟨0, _⟩ => rfl
  | ⟨1, _⟩ => exact Nat.mod_eq_of_lt e.isLt

/-- The target words, before the adjustment: entry `e` is row 1 of the edge list at `e`. -/
theorem dst_apply (ei : Cert.Spmm.EdgeIdx) (e : Fin 1600000) :
    val_main_v3 (F := Ideal) ei (ix1 e) = ei (ix2 1 e) := by
  rw [val_main_v3_apply, val_main_v2_apply]
  congr 1
  funext b
  refine Fin.ext ?_
  match b with
  | ⟨0, _⟩ => rfl
  | ⟨1, _⟩ => exact Nat.mod_eq_of_lt e.isLt

/-- A target word that is a row number is not negative, so the adjustment keeps it. -/
theorem dst'_apply (ei : Cert.Spmm.EdgeIdx) (e : Fin 1600000) (h : (ei (ix2 1 e)).toNat < 100000) :
    val_main_v10 (F := Ideal) ei (ix2 e (0 : Fin 1)) = ei (ix2 1 e) := by
  rw [val_main_v10_apply]
  have hk : idx_main_v10 (ix2 e (0 : Fin 1)) = ix1 e := by
    funext b; match b with | ⟨0, _⟩ => rfl
  rw [hk, val_main_v9_apply, val_main_v6_apply, val_main_v5_apply, val_main_c_apply, dst_apply]
  have hs : (ei (ix2 1 e)).slt 0#32 = false := by
    rw [BitVec.slt_zero_eq_msb, BitVec.msb_eq_false_iff_two_mul_lt]; omega
  have hc : IntOp.cmpi CmpIPredicate.slt (ei (ix2 1 e)) 0#32 = 0#1 := by
    show BitVec.ofBool ((ei (ix2 1 e)).slt 0#32) = 0#1
    rw [hs]; rfl
  rw [hc, select_zero]

/-- The gathered rows: when the target word of edge `p` is a row number, entry `(p, c)` is feature `c` of that row
    (the word read signed is itself, and the cut to the row range does nothing). -/
theorem rows_apply (ei : Cert.Spmm.EdgeIdx) (x : Cert.Spmm.Feat) (j : S1600000x32.Idx)
    (h : (ei (ix2 1 (j 0))).toNat < 100000) :
    val_main_v11 (F := Ideal) ei x j = x (ix2 (Cert.Spmm.rowOf (ei (ix2 1 (j 0)))) (j 1)) := by
  unfold val_main_v11
  have hd : gather_S100000x32_S1600000x1_S1600000x32_1_0_n_n_0_1_132
      = GatherRows.rowDims 100000 32 1600000 Facts₀.gather_S100000x32_S1600000x1_S1600000x32_1_0_n_n_0_1_132_wf := rfl
  rw [hd, GatherRows.gather_rows_apply (by omega)]
  have ht := toInt_of_toNat_lt (ei (ix2 1 (j 0))) (by omega)
  congr 2
  refine Fin.ext ?_
  show min (val_main_v10 (F := Ideal) ei (ix2 (j 0) (0 : Fin 1))).toInt.toNat (100000 - 1)
    = min (ei (ix2 1 (j 0))).toNat 99999
  rw [dst'_apply ei (j 0) h]
  omega

/-- The scaled rows: entry `(p, c)` is the weight of edge `p` times feature `c` of the target's row. -/
theorem msgs_apply (ei : Cert.Spmm.EdgeIdx) (a : Cert.Spmm.EdgeAttr) (x : Cert.Spmm.Feat) (j : S1600000x32.Idx)
    (h : (ei (ix2 1 (j 0))).toNat < 100000) :
    val_main_v13 (F := Ideal) ei a x j = a (ix1 (j 0)) * x (ix2 (Cert.Spmm.rowOf (ei (ix2 1 (j 0)))) (j 1)) := by
  rw [val_main_v13_apply, rows_apply ei x j h, val_main_v12_apply, val_main_v4_apply]
  have hk : idx_main_v4 (idx_main_v12 j) = ix1 (j 0) := by
    funext b; match b with | ⟨0, _⟩ => rfl
  rw [hk]
  rfl

/-- The array the rows are added into is zero everywhere. -/
theorem zeros_apply (i : S100000x32.Idx) : val_main_v14 (F := Ideal) i = 0 := by
  rw [val_main_v14_apply, val_main_cst_apply]
  exact Ideal.ofBits_zero_f32

/-! ## The reference's value -/

/-- The reference's last stage, as a function of the three argument arrays, is `spmm` when every target word is a node number. -/
theorem ref_value (ei : Cert.Spmm.EdgeIdx) (a : Cert.Spmm.EdgeAttr) (x : Cert.Spmm.Feat)
    (hdst : ∀ e : Fin 1600000, (ei (ix2 1 e)).toNat < 100000) :
    Cert.ReferenceIdeal.Read.val_main_v16 (F := Ideal) ei a x = Cert.Spmm.spmm ei a x := by
  funext i
  unfold val_main_v16
  have hd : scatter_S100000x32_S1600000x1_S1600000x32_1_0_0_1
      = ScatterRows.rowDims 100000 32 1600000 Facts₀.scatter_S100000x32_S1600000x1_S1600000x32_1_0_0_1_wf := rfl
  rw [hd, ScatterRows.scatterAdd_rows_apply, zeros_apply, zero_add]
  unfold Cert.Spmm.spmm
  refine Finset.sum_congr ?_ ?_
  · ext p
    rw [Finset.mem_filter, Finset.mem_filter, src_apply, toInt_eq_iff _ _ (idx2_lt0 i)]
  · intro p _
    rw [msgs_apply ei a x (ix2 p (i 1)) (hdst p)]

end Cert.Spmm.Ref

end
-- ==== Proof.lean ====
/-
  Sparse matrix times dense matrix over an edge list of 1600000 edges on 100000 nodes with 32 features: the result row of
  node `n` is the sum, over the edges whose source is `n`, of the edge's weight times the feature row of its target.

  The kernel pads the edge list to 1601536 entries and computes the product densely in two regions. The first contracts,
  for each entry, the one-hot comparison of its target word with every node number against the feature rows, and scales
  by the entry's weight: the entry's message. The second contracts, for each node, the one-hot comparison of its number with
  every entry's source word against the messages. The reference gathers the target's row, scales it and adds it into the
  source's row. A source word that is no node number contributes nothing on either side: the kernel's comparison never
  matches it (the padding entries carry the all-ones word for this reason) and the reference's scatter drops it. A target
  word that is no node number is where the two differ (the kernel's contraction gives a zero row, the reference reads the
  row the word is cut off to), so the statement carries the precondition that every target word is a node number,
  `0 ≤ edge_index[1] < 100000`, the range of the array it indexes. Under it both programs end at `Cert.Spmm.spmm`
  of the three arguments (Proof/Spec.lean); the law joining the two spellings (Proof/Algebra.lean) uses `1 * v = v`,
  `0 * v = 0` and the commutativity of the product on the extended reals, and no finiteness.

  The three frames are the generated ones (the reference's is its generated run with the result dropped). The kernel's run
  with its result buffer kept is Proof/KernelRun.lean; the two regions read as values are Proof/GatherRegion.lean and
  Proof/ScatterRegion.lean, the host operations before them Proof/HostGlue.lean, their composition Proof/KernelValue.lean;
  the reference read as a value is Proof/RefValue.lean; what the precondition says of the target words Proof/PreRange.lean.
-/
import proofs.«423643_j76055280877648_2_alg».proof.Defs
import proofs.«423643_j76055280877648_2_alg».proof.Proof.Gen.Kernel
import proofs.«423643_j76055280877648_2_alg».proof.Proof.Gen.Kernel.Skeleton
import proofs.«423643_j76055280877648_2_alg».proof.Proof.Gen.Kernel.Loops
import proofs.«423643_j76055280877648_2_alg».proof.Proof.Gen.Kernel.Launch
import proofs.«423643_j76055280877648_2_alg».proof.Proof.Gen.Kernel.Points
import proofs.«423643_j76055280877648_2_alg».proof.Proof.Gen.Kernel.Frame
import proofs.«423643_j76055280877648_2_alg».proof.Proof.Gen.KernelIdeal
import proofs.«423643_j76055280877648_2_alg».proof.Proof.Gen.KernelIdeal.Skeleton
import proofs.«423643_j76055280877648_2_alg».proof.Proof.Gen.KernelIdeal.Loops
import proofs.«423643_j76055280877648_2_alg».proof.Proof.Gen.KernelIdeal.Launch
import proofs.«423643_j76055280877648_2_alg».proof.Proof.Gen.KernelIdeal.Points
import proofs.«423643_j76055280877648_2_alg».proof.Proof.Gen.KernelIdeal.Frame
import proofs.«423643_j76055280877648_2_alg».proof.Proof.Gen.ReferenceIdeal
import proofs.«423643_j76055280877648_2_alg».proof.Proof.Gen.ReferenceIdeal.Run
import proofs.«423643_j76055280877648_2_alg».proof.Proof.Gen.ReferenceIdeal.Read
import proofs.«423643_j76055280877648_2_alg».proof.Proof.Gen.Pre_finite_inputs
import proofs.«423643_j76055280877648_2_alg».proof.Proof.Spec
import proofs.«423643_j76055280877648_2_alg».proof.Proof.Algebra
import proofs.«423643_j76055280877648_2_alg».proof.Proof.PreRange
import proofs.«423643_j76055280877648_2_alg».proof.Proof.KernelRun
import proofs.«423643_j76055280877648_2_alg».proof.Proof.KernelValue
import proofs.«423643_j76055280877648_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs, and ends with its three argument arrays as launched: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is a straight line of host operations: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to preserve. -/
theorem preserves : Cert.preserves_Kernel_KernelIdeal := trivial

/-- Both idealized programs end at the sum, over the edges leaving each node, of weight times the target's feature row.
    The kernel's result buffer holds the dense one-hot spelling of that sum over the padded edge list; the reference's holds
    its gather, scaling and scatter-add; under the precondition every target word is a node number, and then each is that sum. -/
theorem algebraic : Cert.algebraic_KernelIdeal_ReferenceIdeal := by
  intro m ρ m' ρ' hpre hagree
  refine ⟨fun c => Cert.Spmm.spmm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.Spmm.Run.run_out (F := Ideal) m ρ)
    rw [Cert.Spmm.Kernel.out_value m ρ c]
    exact Cert.Spmm.scatterSum_gatherScale _ _ _ (Cert.Spmm.dst_lt_of_pre _ _ _ (hpre c))
  · refine (θ_run Cert.ReferenceIdeal.defs _ _).mono (fun r h c => ⟨(h c).1.trans ?_, (h c).2⟩)
      (Cert.ReferenceIdeal.Value.run (F := Ideal) m' ρ')
    show Cert.ReferenceIdeal.Read.val_main_v16 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hagree c).1, (hagree c).2.1, (hagree c).2.2]
    exact Cert.Spmm.Ref.ref_value _ _ _ (Cert.Spmm.dst_lt_of_pre _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
